-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000x128 : Shape := ⟨2, ![1600000, 128]⟩
abbrev S1600000x1 : Shape := ⟨2, ![1600000, 1]⟩
abbrev S128x256 : Shape := ⟨2, ![128, 256]⟩
abbrev S128 : Shape := ⟨1, ![128]⟩
abbrev S128x128 : Shape := ⟨2, ![128, 128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x128 : S_.BroadcastsInDim S1600000x128 (![] : Fin 0 → Fin S1600000x128.rank)
  reducesTo_S1600000x128_S_d0_1 : S1600000x128.ReducesTo [0, 1] S_
  bcast_S_S1600000x1 : S_.BroadcastsInDim S1600000x1 (![] : Fin 0 → Fin S1600000x1.rank)
  reducesTo_S1600000x1_S_d0_1 : S1600000x1.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg7 : IVec S1600000 32) (main_v33 : IVec S_ 1) : IVec S_ 1 :=
  let main_c_12 : IVec S_ 32 := constantI S_ 32 4294867296#32
  let main_v34 : IVec S1600000 32 := broadcastInDim S1600000 ![] bcast_S_S1600000 main_c_12
  let main_v35 : IVec S1600000 1 := cmpi .sge main_arg7 main_v34
  let main_c_13 : IVec S_ 1 := constantI S_ 1 1#1
  let main_v36 : IVec S_ 1 := (fun x v => Host.reduce IntOp.andi x v reducesTo_S1600000_S_d0 h_S_) main_v35 main_c_13
  let main_v37 : IVec S_ 1 := andi main_v33 main_v36
  let main_c_14 : IVec S_ 32 := constantI S_ 32 100000#32
  let main_v38 : IVec S1600000 32 := broadcastInDim S1600000 ![] bcast_S_S1600000 main_c_14
  let main_v39 : IVec S1600000 1 := cmpi .slt main_arg7 main_v38
  let main_c_15 : IVec S_ 1 := constantI S_ 1 1#1
  let main_v40 : IVec S_ 1 := (fun x v => Host.reduce IntOp.andi x v reducesTo_S1600000_S_d0 h_S_) main_v39 main_c_15
  let main_v41 : IVec S_ 1 := andi main_v37 main_v40
  main_v41

def fn_part1 {F : FTy → Type} [FloatOps F] (main_arg4 : FVec F S128 .f32) (main_arg5 : FVec F S128x128 .f32) (main_arg6 : FVec F S128 .f32) (main_arg7 : IVec S1600000 32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_v33

def fn {F : FTy → Type} [FloatOps F] (main_arg0 : FVec F S100000x128 .f32) (main_arg1 : FVec F S1600000x128 .f32) (main_arg2 : FVec F S1600000x1 .f32) (main_arg3 : FVec F S128x256 .f32) (main_arg4 : FVec F S128 .f32) (main_arg5 : FVec F S128x128 .f32) (main_arg6 : FVec F S128 .f32) (main_arg7 : IVec S1600000 32) (main_arg8 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x128 .f32 := Host.absf main_arg1
  let main_cst_0 : FVec F S_ .f32 := constant S_ .f32 0x7F800000#32
  let main_v5 : FVec F S1600000x128 .f32 := broadcastInDim S1600000x128 ![] bcast_S_S1600000x128 main_cst_0
  let main_v6 : IVec S1600000x128 1 := cmpf .olt main_v4 main_v5
  let main_c_1 : IVec S_ 1 := constantI S_ 1 1#1
  let main_v7 : IVec S_ 1 := (fun x v => Host.reduce IntOp.andi x v reducesTo_S1600000x128_S_d0_1 h_S_) main_v6 main_c_1
  let main_v8 : IVec S_ 1 := andi main_v3 main_v7
  let main_v9 : FVec F S1600000x1 .f32 := Host.absf main_arg2
  let main_cst_2 : FVec F S_ .f32 := constant S_ .f32 0x7F800000#32
  let main_v10 : FVec F S1600000x1 .f32 := broadcastInDim S1600000x1 ![] bcast_S_S1600000x1 main_cst_2
  let main_v11 : IVec S1600000x1 1 := cmpf .olt main_v9 main_v10
  let main_c_3 : IVec S_ 1 := constantI S_ 1 1#1
  let main_v12 : IVec S_ 1 := (fun x v => Host.reduce IntOp.andi x v reducesTo_S1600000x1_S_d0_1 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_arg5 main_arg6 main_arg7 main_v13 main_v16
-- ==== Kernel.lean ====
abbrev S100000x128 : Shape := ⟨2, ![100000, 128]⟩
abbrev S1600000x128 : Shape := ⟨2, ![1600000, 128]⟩
abbrev S1600000x1 : Shape := ⟨2, ![1600000, 1]⟩
abbrev S128x256 : Shape := ⟨2, ![128, 256]⟩
abbrev S128 : Shape := ⟨1, ![128]⟩
abbrev S128x128 : Shape := ⟨2, ![128, 128]⟩
abbrev S1600000 : Shape := ⟨1, ![1600000]⟩
abbrev S1x128 : Shape := ⟨2, ![1, 128]⟩
abbrev S_ : Shape := ⟨0, ![]⟩
abbrev S1 : Shape := ⟨1, ![1]⟩
abbrev S1x1 : Shape := ⟨2, ![1, 1]⟩
abbrev S8000x128 : Shape := ⟨2, ![8000, 128]⟩
abbrev S8000x1 : Shape := ⟨2, ![8000, 1]⟩
abbrev S5000x128 : Shape := ⟨2, ![5000, 128]⟩

abbrev nBuf : Space → Nat
  | .hbm => 74
  | .vmem => 38
  | .smem => 0
  | _ => 0

abbrev bufTy : (tb : Table) → Fin (tcTables nBuf tb) → BufTy
  | .hbm, ⟨0, _⟩ => ⟨S100000x128, .f32⟩
  | .hbm, ⟨1, _⟩ => ⟨S1600000x128, .f32⟩
  | .hbm, ⟨2, _⟩ => ⟨S1600000x1, .f32⟩
  | .hbm, ⟨3, _⟩ => ⟨S128x256, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1600000, .i32⟩
  | .hbm, ⟨8, _⟩ => ⟨S1600000, .i32⟩
  | .hbm, ⟨9, _⟩ => ⟨S128x128, .f32⟩
  | .hbm, ⟨10, _⟩ => ⟨S128x128, .f32⟩
  | .hbm, ⟨11, _⟩ => ⟨S128x128, .f32⟩
  | .hbm, ⟨12, _⟩ => ⟨S128x128, .f32⟩
  | .hbm, ⟨13, _⟩ => ⟨S128x128, .f32⟩
  | .hbm, ⟨14, _⟩ => ⟨S1x128, .f32⟩
  | .hbm, ⟨15, _⟩ => ⟨S1x128, .f32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1, .i32⟩
  | .hbm, ⟨25, _⟩ => ⟨S_, .i32⟩
  | .hbm, ⟨26, _⟩ => ⟨S1600000x1, .i32⟩
  | .hbm, ⟨27, _⟩ => ⟨S1600000x1, .i1⟩
  | .hbm, ⟨28, _⟩ => ⟨S1x1, .i32⟩
  | .hbm, ⟨29, _⟩ => ⟨S1600000x1, .i32⟩
  | .hbm, ⟨30, _⟩ => ⟨S1600000x1, .i1⟩
  | .hbm, ⟨31, _⟩ => ⟨S1600000x1, .i1⟩
  | .hbm, ⟨32, _⟩ => ⟨S_, .i1⟩
  | .hbm, ⟨33, _⟩ => ⟨S1600000, .i1⟩
  | .hbm, ⟨34, _⟩ => ⟨S1600000x128, .f32⟩
  | .hbm, ⟨35, _⟩ => ⟨S1600000x128, .i1⟩
  | .hbm, ⟨36, _⟩ => ⟨S_, .f32⟩
  | .hbm, ⟨37, _⟩ => ⟨S1600000x128, .f32⟩
  | .hbm, ⟨38, _⟩ => ⟨S1600000x128, .f32⟩
  | .hbm, ⟨39, _⟩ => ⟨S1600000x128, .f32⟩
  | .hbm, ⟨40, _⟩ => ⟨S_, .f32⟩
  | .hbm, ⟨41, _⟩ => ⟨S100000x128, .f32⟩
  | .hbm, ⟨42, _⟩ => ⟨S1600000x1, .i32⟩
  | .hbm, ⟨43, _⟩ => ⟨S100000x128, .f32⟩
  | .hbm, ⟨44, _⟩ => ⟨S100000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1, .i32⟩
  | .hbm, ⟨54, _⟩ => ⟨S_, .i32⟩
  | .hbm, ⟨55, _⟩ => ⟨S1600000x1, .i32⟩
  | .hbm, ⟨56, _⟩ => ⟨S1600000x1, .i1⟩
  | .hbm, ⟨57, _⟩ => ⟨S1x1, .i32⟩
  | .hbm, ⟨58, _⟩ => ⟨S1600000x1, .i32⟩
  | .hbm, ⟨59, _⟩ => ⟨S1600000x1, .i1⟩
  | .hbm, ⟨60, _⟩ => ⟨S1600000x1, .i1⟩
  | .hbm, ⟨61, _⟩ => ⟨S_, .i1⟩
  | .hbm, ⟨62, _⟩ => ⟨S1600000, .i1⟩
  | .hbm, ⟨63, _⟩ => ⟨S1600000x128, .f32⟩
  | .hbm, ⟨64, _⟩ => ⟨S1600000x128, .i1⟩
  | .hbm, ⟨65, _⟩ => ⟨S_, .f32⟩
  | .hbm, ⟨66, _⟩ => ⟨S1600000x128, .f32⟩
  | .hbm, ⟨67, _⟩ => ⟨S1600000x128, .f32⟩
  | .hbm, ⟨68, _⟩ => ⟨S1600000x128, .f32⟩
  | .hbm, ⟨69, _⟩ => ⟨S_, .f32⟩
  | .hbm, ⟨70, _⟩ => ⟨S100000x128, .f32⟩
  | .hbm, ⟨71, _⟩ => ⟨S1600000x1, .i32⟩
  | .hbm, ⟨72, _⟩ => ⟨S100000x128, .f32⟩
  | .hbm, ⟨73, _⟩ => ⟨S100000x128, .f32⟩
  | .local _ .vmem, ⟨0, _⟩ => ⟨S8000x128, .f32⟩
  | .local _ .vmem, ⟨1, _⟩ => ⟨S8000x128, .f32⟩
  | .local _ .vmem, ⟨2, _⟩ => ⟨S8000x128, .f32⟩
  | .local _ .vmem, ⟨3, _⟩ => ⟨S8000x128, .f32⟩
  | .local _ .vmem, ⟨4, _⟩ => ⟨S8000x1, .f32⟩
  | .local _ .vmem, ⟨5, _⟩ => ⟨S8000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S8000x128, .f32⟩
  | .local _ .vmem, ⟨10, _⟩ => ⟨S8000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S128x128, .f32⟩
  | .local _ .vmem, ⟨16, _⟩ => ⟨S1x128, .f32⟩
  | .local _ .vmem, ⟨17, _⟩ => ⟨S5000x128, .f32⟩
  | .local _ .vmem, ⟨18, _⟩ => ⟨S5000x128, .f32⟩
  | .local _ .vmem, ⟨19, _⟩ => ⟨S8000x128, .f32⟩
  | .local _ .vmem, ⟨20, _⟩ => ⟨S8000x128, .f32⟩
  | .local _ .vmem, ⟨21, _⟩ => ⟨S8000x128, .f32⟩
  | .local _ .vmem, ⟨22, _⟩ => ⟨S8000x128, .f32⟩
  | .local _ .vmem, ⟨23, _⟩ => ⟨S8000x1, .f32⟩
  | .local _ .vmem, ⟨24, _⟩ => ⟨S8000x1, .f32⟩
  | .local _ .vmem, ⟨25, _⟩ => ⟨S128x128, .f32⟩
  | .local _ .vmem, ⟨26, _⟩ => ⟨S128x128, .f32⟩
  | .local _ .vmem, ⟨27, _⟩ => ⟨S1x128, .f32⟩
  | .local _ .vmem, ⟨28, _⟩ => ⟨S8000x128, .f32⟩
  | .local _ .vmem, ⟨29, _⟩ => ⟨S8000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S128x128, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v7 : Ref sig .tc := ⟨.hbm, 38, rfl⟩
abbrev main_v8 : Ref sig .tc := ⟨.hbm, 39, rfl⟩
abbrev main_cst : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_call1_c : Ref sig .tc := ⟨.hbm, 45, rfl⟩
abbrev main_call1_v0 : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_c_1 : Ref sig .tc := ⟨.hbm, 53, rfl⟩
abbrev main_call1_c_2 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_c_3 : Ref sig .tc := ⟨.hbm, 61, rfl⟩
abbrev main_call1_v12 : Ref sig .tc := ⟨.hbm, 62, rfl⟩
abbrev main_call1_v13 : Ref sig .tc := ⟨.hbm, 63, rfl⟩
abbrev main_call1_v14 : Ref sig .tc := ⟨.hbm, 64, rfl⟩
abbrev main_call1_cst : Ref sig .tc := ⟨.hbm, 65, rfl⟩
abbrev main_call1_v15 : Ref sig .tc := ⟨.hbm, 66, rfl⟩
abbrev main_v13 : Ref sig .tc := ⟨.hbm, 67, rfl⟩
abbrev main_v14 : Ref sig .tc := ⟨.hbm, 68, rfl⟩
abbrev main_cst_0 : Ref sig .tc := ⟨.hbm, 69, rfl⟩
abbrev main_v15 : Ref sig .tc := ⟨.hbm, 70, rfl⟩
abbrev main_v16 : Ref sig .tc := ⟨.hbm, 71, rfl⟩
abbrev main_v17 : Ref sig .tc := ⟨.hbm, 72, rfl⟩
abbrev main_v18 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg4_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem4_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem4_1 : DmaSem sig := 37

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S8000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S128x256_S128x128_0_0 : S128x256.Slices ![0, 0] S128x128
  slices_S128x256_S128x128_0_128 : S128x256.Slices ![0, 128] S128x128
  transposes_S128x128_S128x128_1_0 : S128x128.Transposes [1, 0] S128x128
  shapeCasts_S128_S1x128 : S128.ShapeCasts S1x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  inb_S8000x1_S8000x1_0_0 : ∀ a, (![0, 0] : Fin 2 → Nat) a + S8000x1.size a ≤ S8000x1.size a
  h_S8000x1 : 0 < S8000x1.numel
  broadcasts_S8000x1_S8000x128 : S8000x1.Broadcasts S8000x128
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  broadcasts_S1x128_S5000x128 : S1x128.Broadcasts S5000x128
  shapeCasts_S5000x128_S5000x128 : S5000x128.ShapeCasts S5000x128
  gather_S100000x128_S1600000x1_S1600000x128_1_0_n_n_0_1_1128_wf : GatherDims.WF S100000x128 S1600000x1 S1600000x128 [1] [0] [] [0] [] 1 ![1, 128]
  dot_S8000x128_S128x128_S8000x128_1_0_0_1_n_n_wf : DotDims.WF S8000x128 S128x128 S8000x128 [1] [0] [0] [1] [] []
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S1600000x128.size a
  hwx0_0 : ∀ i : grid0.Coords, EltTy.bits .f32 = 32 ∨ (Rect.block (s := S1600000x128) S8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S1600000x128.size a
  hwx0_1 : ∀ i : grid0.Coords, EltTy.bits .f32 = 32 ∨ (Rect.block (s := S1600000x128) S8000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x1.size a ≤ S1600000x1.size a
  hwx0_2 : ∀ i : grid0.Coords, EltTy.bits .f32 = 32 ∨ (Rect.block (s := S1600000x1) S8000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8000x128.size a ≤ S1600000x128.size a
  hwx0_6 : ∀ i : grid0.Coords, EltTy.bits .f32 = 32 ∨ (Rect.block (s := S1600000x128) S8000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x128.size a ≤ S1600000x128.size a
  hwx2_0 : ∀ i : grid2.Coords, EltTy.bits .f32 = 32 ∨ (Rect.block (s := S1600000x128) S8000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x128.size a ≤ S1600000x128.size a
  hwx2_1 : ∀ i : grid2.Coords, EltTy.bits .f32 = 32 ∨ (Rect.block (s := S1600000x128) S8000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x1.size a ≤ S1600000x1.size a
  hwx2_2 : ∀ i : grid2.Coords, EltTy.bits .f32 = 32 ∨ (Rect.block (s := S1600000x1) S8000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S8000x128.size a ≤ S1600000x128.size a
  hwx2_6 : ∀ i : grid2.Coords, EltTy.bits .f32 = 32 ∨ (Rect.block (s := S1600000x128) S8000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v7) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S8000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v13) S8000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S8000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S8000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v2) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v3) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v5) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v14) S8000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v12) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v17) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v4) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v6) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v18) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x128 : Shape := ⟨2, ![100000, 128]⟩
abbrev S1600000x128 : Shape := ⟨2, ![1600000, 128]⟩
abbrev S1600000x1 : Shape := ⟨2, ![1600000, 1]⟩
abbrev S128x256 : Shape := ⟨2, ![128, 256]⟩
abbrev S128 : Shape := ⟨1, ![128]⟩
abbrev S128x128 : Shape := ⟨2, ![128, 128]⟩
abbrev S1600000 : Shape := ⟨1, ![1600000]⟩
abbrev S1x128 : Shape := ⟨2, ![1, 128]⟩
abbrev S_ : Shape := ⟨0, ![]⟩

abbrev nBuf : Space → Nat
  | .hbm => 63
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000x128, .f32⟩
  | .hbm, ⟨2, _⟩ => ⟨S1600000x1, .f32⟩
  | .hbm, ⟨3, _⟩ => ⟨S128x256, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1600000, .i32⟩
  | .hbm, ⟨8, _⟩ => ⟨S1600000, .i32⟩
  | .hbm, ⟨9, _⟩ => ⟨S128x128, .f32⟩
  | .hbm, ⟨10, _⟩ => ⟨S128x128, .f32⟩
  | .hbm, ⟨11, _⟩ => ⟨S1600000x128, .f32⟩
  | .hbm, ⟨12, _⟩ => ⟨S1x128, .f32⟩
  | .hbm, ⟨13, _⟩ => ⟨S1600000x128, .f32⟩
  | .hbm, ⟨14, _⟩ => ⟨S1600000x128, .f32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S1600000x128, .f32⟩
  | .hbm, ⟨25, _⟩ => ⟨S1600000x128, .f32⟩
  | .hbm, ⟨26, _⟩ => ⟨S1600000x128, .f32⟩
  | .hbm, ⟨27, _⟩ => ⟨S1600000x128, .f32⟩
  | .hbm, ⟨28, _⟩ => ⟨S1600000x128, .f32⟩
  | .hbm, ⟨29, _⟩ => ⟨S_, .f32⟩
  | .hbm, ⟨30, _⟩ => ⟨S100000x128, .f32⟩
  | .hbm, ⟨31, _⟩ => ⟨S1600000x1, .i32⟩
  | .hbm, ⟨32, _⟩ => ⟨S100000x128, .f32⟩
  | .hbm, ⟨33, _⟩ => ⟨S100000x128, .f32⟩
  | .hbm, ⟨34, _⟩ => ⟨S1x128, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x128, .f32⟩
  | .hbm, ⟨48, _⟩ => ⟨S1600000x128, .f32⟩
  | .hbm, ⟨49, _⟩ => ⟨S1600000x128, .f32⟩
  | .hbm, ⟨50, _⟩ => ⟨S1600000x128, .f32⟩
  | .hbm, ⟨51, _⟩ => ⟨S1600000x128, .f32⟩
  | .hbm, ⟨52, _⟩ => ⟨S1600000x128, .f32⟩
  | .hbm, ⟨53, _⟩ => ⟨S_, .f32⟩
  | .hbm, ⟨54, _⟩ => ⟨S100000x128, .f32⟩
  | .hbm, ⟨55, _⟩ => ⟨S1600000x1, .i32⟩
  | .hbm, ⟨56, _⟩ => ⟨S100000x128, .f32⟩
  | .hbm, ⟨57, _⟩ => ⟨S100000x128, .f32⟩
  | .hbm, ⟨58, _⟩ => ⟨S1x128, .f32⟩
  | .hbm, ⟨59, _⟩ => ⟨S100000x128, .f32⟩
  | .hbm, ⟨60, _⟩ => ⟨S100000x128, .f32⟩
  | .hbm, ⟨61, _⟩ => ⟨S100000x128, .f32⟩
  | .hbm, ⟨62, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_1 : Ref sig .tc := ⟨.hbm, 39, rfl⟩
abbrev main_v27 : Ref sig .tc := ⟨.hbm, 40, rfl⟩
abbrev main_v28 : Ref sig .tc := ⟨.hbm, 41, rfl⟩
abbrev main_c_2 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_3 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]

class Facts₀ : Prop where
  slices_S128x256_S128x128_0_0 : S128x256.Slices ![0, 0] S128x128
  slices_S128x256_S128x128_0_128 : S128x256.Slices ![0, 128] S128x128
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S1x128_S100000x128_0_1 : S1x128.BroadcastsInDim S100000x128 (![0, 1] : Fin 2 → Fin S100000x128.rank)
  dot_S1600000x128_S128x128_S1600000x128_1_1_0_0_n_n_wf : DotDims.WF S1600000x128 S128x128 S1600000x128 [1] [1] [0] [0] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_1_0_0_n_n_wf : DotDims.WF S100000x128 S128x128 S100000x128 [1] [1] [0] [0] [] []

variable [Facts₀]

def dot_S1600000x128_S128x128_S1600000x128_1_1_0_0_n_n : DotDims S1600000x128 S128x128 S1600000x128 where
  lhsContracting := [1]
  rhsContracting := [1]
  lhsNonContracting := [0]
  rhsNonContracting := [0]
  lhsBatch := []
  rhsBatch := []
  wf := dot_S1600000x128_S128x128_S1600000x128_1_1_0_0_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_1_0_0_n_n : DotDims S100000x128 S128x128 S100000x128 where
  lhsContracting := [1]
  rhsContracting := [1]
  lhsNonContracting := [0]
  rhsNonContracting := [0]
  lhsBatch := []
  rhsBatch := []
  wf := dot_S100000x128_S128x128_S100000x128_1_1_0_0_n_n_wf

class Facts : Prop extends Facts₀ where

variable [Facts]
-- ==== Proof.Spec.lean ====
/-
  The two pure functions this certificate is about, at the ideal instance (floats are extended reals), index by index
  over literal shapes.

  `msg`: the per-edge message. For edge `e` and output channel `o`,
      tanh( Σ_k srch[e,k] · ws[k,o]  +  Σ_k rel[e,k] · wr[k,o]  +  b[0,o] ) · conf[e,0]
  where `srch` holds each edge's source-node state, `rel` the edge's relation vector, `ws` and `wr` the two halves of the
  message weight already transposed (`ws[k,o] = W_src[o,k]`), `b` the bias as a row and `conf` the edge's confidence.

  `upd`: the node update. For node `n` and channel `o`,
      tanh( Σ_k h[n,k] · w[k,o]  +  b[0,o]  +  agg[n,o] )
  where `agg` is the sum of the messages arriving at `n`.
-/
import Idealize.ShloMosaic.PureOps.Ideal
import Idealize.ShloMosaic.Lib.ValueIdx

noncomputable section

namespace Cert.Spec

open Idealize.ShloMosaic Idealize.ShloMosaic.ValueIdx

/-- Edges × channels. -/
abbrev SE : Shape := ⟨2, ![1600000, 128]⟩
/-- Edges × 1. -/
abbrev SC : Shape := ⟨2, ![1600000, 1]⟩
/-- Nodes × channels. -/
abbrev SN : Shape := ⟨2, ![100000, 128]⟩
/-- A square weight. -/
abbrev SW : Shape := ⟨2, ![128, 128]⟩
/-- A bias row. -/
abbrev SB : Shape := ⟨2, ![1, 128]⟩

/-- The per-edge message at edge `e`, channel `o`. -/
def msgAt (srch rel : SE.Idx → EReal) (conf : SC.Idx → EReal) (ws wr : SW.Idx → EReal) (b : SB.Idx → EReal)
    (e : Fin 1600000) (o : Fin 128) : EReal :=
  Ideal.tanh ((∑ k : Fin 128, srch (ix2 e k) * ws (ix2 k o)) + (∑ k : Fin 128, rel (ix2 e k) * wr (ix2 k o))
    + b (ix2 (0 : Fin 1) o)) * conf (ix2 e (0 : Fin 1))

/-- The per-edge messages as one array. -/
def msg (srch rel : SE.Idx → EReal) (conf : SC.Idx → EReal) (ws wr : SW.Idx → EReal) (b : SB.Idx → EReal) :
    SE.Idx → EReal :=
  fun j => msgAt srch rel conf ws wr b (j 0) (j 1)

/-- The node update at node `n`, channel `o`. -/
def updAt (h agg : SN.Idx → EReal) (w : SW.Idx → EReal) (b : SB.Idx → EReal) (n : Fin 100000) (o : Fin 128) : EReal :=
  Ideal.tanh ((∑ k : Fin 128, h (ix2 n k) * w (ix2 k o)) + b (ix2 (0 : Fin 1) o) + agg (ix2 n o))

/-- The node update as one array. -/
def upd (h agg : SN.Idx → EReal) (w : SW.Idx → EReal) (b : SB.Idx → EReal) : SN.Idx → EReal :=
  fun j => updAt h agg w b (j 0) (j 1)

theorem msg_apply (srch rel : SE.Idx → EReal) (conf : SC.Idx → EReal) (ws wr : SW.Idx → EReal) (b : SB.Idx → EReal)
    (e : Fin 1600000) (o : Fin 128) : msg srch rel conf ws wr b (ix2 e o) = msgAt srch rel conf ws wr b e o := rfl

theorem upd_apply (h agg : SN.Idx → EReal) (w : SW.Idx → EReal) (b : SB.Idx → EReal) (n : Fin 100000) (o : Fin 128) :
    upd h agg w b (ix2 n o) = updAt h agg w b n o := rfl

end Cert.Spec

end
-- ==== Proof.TakeBridge.lean ====
import proofs.«421721_j14199161880576_1_alg».proof.Defs
import proofs.«421721_j14199161880576_1_alg».proof.Proof.Gen.KernelIdeal
import proofs.«421721_j14199161880576_1_alg».proof.Proof.Gen.Pre_finite_inputs
import Idealize.ShloMosaic.Lib.ValueIdx
import Idealize.ShloMosaic.Lib.ReduceAll
import Idealize.ShloMosaic.Lib.StableHlo.Predicate

noncomputable section

namespace Cert.KernelIdeal.Take

open Idealize.ShloMosaic Idealize.ShloMosaic.TcCoe Idealize.SL.Sem Idealize.ShloMosaic.ValueIdx
open Cert.KernelIdeal Cert.KernelIdeal.Gen

/-- The index word with a negative value counted from the end: `v + 100000` when `v < 0`, else `v`. -/
def wnorm (v : BitVec 32) : BitVec 32 :=
  Scalar.select (IntOp.cmpi .slt v 0#32) (IntOp.addi v 100000#32) v

/-- For a word whose signed value lies in `[-100000, 100000)` the normalised word passes both bound tests:
    `0 ≤ wnorm v` and `wnorm v ≤ 99999`, as signed words. The sum `v + 100000` does not wrap: it lies in `[0, 100000)`. -/
theorem wnorm_bits (v : BitVec 32) (h1 : (-100000 : ℤ) ≤ v.toInt) (h2 : v.toInt < 100000) :
    IntOp.andi (IntOp.cmpi .sge (wnorm v) 0#32) (IntOp.cmpi .sle (wnorm v) 99999#32) = 1#1 := by
  have e0 : (0#32 : BitVec 32).toInt = 0 := by decide
  have e1 : (99999#32 : BitVec 32).toInt = 99999 := by decide
  have e2 : (100000#32 : BitVec 32).toInt = 100000 := by decide
  rw [IntOp.andi_eq_one]
  unfold wnorm Scalar.select IntOp.cmpi IntOp.addi
  simp only [StableHlo.Predicate.ofBool_eq_one_iff, BitVec.slt, BitVec.sle, decide_eq_true_eq, e0, e1]
  by_cases hneg : v.toInt < 0
  · rw [if_pos (by simp [hneg])]
    have hsum : (v + 100000#32).toInt = v.toInt + 100000 := by
      rw [BitVec.toInt_add, e2]
      simp only [Int.bmod_def]
      omega
    omega
  · rw [if_neg (by simp [hneg])]
    omega

/-- A word that passes the signed test `v ≥ -100000` (the bound printed as its 32-bit word) has signed value at least -100000. -/
theorem toInt_ge_of_cmpi (v : BitVec 32) (h : IntOp.cmpi .sge v 4294867296#32 = 1#1) : (-100000 : ℤ) ≤ v.toInt := by
  have e : (4294867296#32 : BitVec 32).toInt = -100000 := by decide
  unfold IntOp.cmpi at h
  simp only [StableHlo.Predicate.ofBool_eq_one_iff, BitVec.sle, decide_eq_true_eq, e] at h
  exact h

/-- A word that passes the signed test `v < 100000` has signed value below 100000. -/
theorem toInt_lt_of_cmpi (v : BitVec 32) (h : IntOp.cmpi .slt v 100000#32 = 1#1) : v.toInt < 100000 := by
  have e : (100000#32 : BitVec 32).toInt = 100000 := by decide
  unfold IntOp.cmpi at h
  simp only [StableHlo.Predicate.ofBool_eq_one_iff, BitVec.slt, decide_eq_true_eq, e] at h
  exact h

/-- A left fold by `and` from 1 over bits that are all 1 is 1. -/
theorem foldl_andi_all_one {ι : Type} (f : ι → BitVec 1) (hf : ∀ n, f n = 1#1) :
    ∀ l : List ι, l.foldl (fun r n => IntOp.andi r (f n)) 1#1 = 1#1
  | [] => rfl
  | a :: l => by
    have h11 : IntOp.andi (1#1 : BitVec 1) 1#1 = 1#1 := by decide
    rw [List.foldl_cons, hf a, h11]
    exact foldl_andi_all_one f hf l

/-- A reduction by `and` from the initial bit 1 of an array whose every bit is 1 is 1 at every result index. -/
theorem reduce_andi_of_all {s t u : Shape} {axes : List (Fin s.rank)} (x : s.Idx → BitVec 1) (init : u.Idx → BitVec 1)
    (h : s.ReducesTo axes t) (hu : 0 < u.numel) (hx : ∀ i, x i = 1#1) (hinit : init (Shape.Idx.first hu) = 1#1) (j : t.Idx) :
    Host.reduce IntOp.andi x init h hu j = 1#1 := by
  rw [Host.reduce_eq_foldl, hinit]
  exact foldl_andi_all_one x hx _

/-- Every source index lies in `[-100000, 100000)`: the range on which indexing a 100000-row table, with negative
    indices counted from the end, stays inside the table. -/
def InRange (src : IVec S1600000 32) : Prop :=
  ∀ e : S1600000.Idx, (-100000 : ℤ) ≤ (src e).toInt ∧ (src e).toInt < 100000

/-- The source indices with negative ones counted from the end (`i + 100000` when `i < 0`), as a column. -/
def normIdx (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The normalised column at a row is the normalised word of the source index that row reads. -/
theorem normIdx_apply (src : IVec S1600000 32) (i : S1600000x1.Idx) :
    ∃ e : S1600000.Idx, normIdx src i = wnorm (src e) := ⟨_, rfl⟩

/-- The rank-0 shape has one index. -/
instance subsingleton_S_Idx : Subsingleton S_.Idx := ⟨fun a b => funext fun d => d.elim0⟩

/-- The precondition puts every source index in range. -/
theorem inRange_of_pre (m : (ℓ : Loc nD τ sig) → Buf (Elt Ideal) ℓ) (hpre : Cert.Pre_KernelIdeal m) (c : Dev nD) :
    InRange (m ((c.tc : Thread nD τ).loc main_arg7)) := by
  intro e
  have h0 := congrFun (hpre c) ValueIdx.ix0
  dsimp only [Cert.Pre_finite_inputs.fn, Cert.Pre_finite_inputs.fn_part1, Cert.Pre_finite_inputs.fn_part2, andi] at h0
  obtain ⟨h37, h40⟩ := IntOp.andi_eq_one.1 h0
  obtain ⟨_, h36⟩ := IntOp.andi_eq_one.1 h37
  have hge := Host.reduce_andi_all _ _ _ _ _ h36 e
  have hlt := Host.reduce_andi_all _ _ _ _ _ h40 e
  exact ⟨toInt_ge_of_cmpi _ hge, toInt_lt_of_cmpi _ hlt⟩

end Cert.KernelIdeal.Take

end
-- ==== Proof.MsgRegion0.lean ====
/-
  Region 0, the per-edge message kernel: after its run the output array is `Cert.Spec.msg` of the six input arrays as the
  region found them.

  The grid has 200 points; point `t` holds rows `8000 t … 8000 t + 7999` of the source-state, relation-vector and
  confidence arrays and of the output, and the whole of the two weights and the bias row. The body stores, at row `p` and
  channel `q` of the block,
      tanh( Σ_k src[p,k] · ws[k,q]  +  Σ_k rel[p,k] · wr[k,q]  +  b[0,q] ) · conf[p,0],
  the two sums being the matrix products into a zero accumulator read at an index (the roundings of the operands to bf16
  are the identity on extended reals). Read through the blocks, that is the message of edge `8000 t + p`; the 200 blocks
  tile the 1600000 rows, edge `r` lying in the block of point `r / 8000`.
-/
import proofs.«421721_j14199161880576_1_alg».proof.Proof.Gen.KernelIdeal.Frame
import proofs.«421721_j14199161880576_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.MsgRegion0

open Idealize.ShloMosaic Idealize.ShloMosaic.TcCoe Idealize.SL.Sem Idealize.ShloMosaic.ValueIdx
open Cert.KernelIdeal Cert.KernelIdeal.Gen

/-! ## The stored value at an index -/

/-- Row `p` of the left operand against column `q` of the right one: the left operand's row axis is the output's. -/
theorem lhs_rows_0 (i : S8000x128.Idx) (k : dot_S8000x128_S128x128_S8000x128_1_0_0_1_n_n.contr.Idx) :
    (dot_S8000x128_S128x128_S8000x128_1_0_0_1_n_n.lhsIdx i k 0).val = (i 0).val := by
  unfold DotDims.lhsIdx
  rw [dif_neg (show ¬(0 : Fin S8000x128.rank) ∈ dot_S8000x128_S128x128_S8000x128_1_0_0_1_n_n.lhsBatch by decide), dif_pos (show (0 : Fin S8000x128.rank) ∈ dot_S8000x128_S128x128_S8000x128_1_0_0_1_n_n.lhsNonContracting by decide)]
  rfl
/-- The left operand's column axis is the contracted one. -/
theorem lhs_rows_1 (i : S8000x128.Idx) (k : dot_S8000x128_S128x128_S8000x128_1_0_0_1_n_n.contr.Idx) :
    (dot_S8000x128_S128x128_S8000x128_1_0_0_1_n_n.lhsIdx i k 1).val = (k ⟨0, by decide⟩).val :=
  dot_S8000x128_S128x128_S8000x128_1_0_0_1_n_n.lhsIdx_val_of_single rfl i k
/-- The right operand's row axis is the contracted one. -/
theorem rhs_cols_0 (i : S8000x128.Idx) (k : dot_S8000x128_S128x128_S8000x128_1_0_0_1_n_n.contr.Idx) :
    (dot_S8000x128_S128x128_S8000x128_1_0_0_1_n_n.rhsIdx i k 0).val = (k ⟨0, by decide⟩).val :=
  dot_S8000x128_S128x128_S8000x128_1_0_0_1_n_n.rhsIdx_val_of_single rfl i k
/-- The right operand's column axis is the output's. -/
theorem rhs_cols_1 (i : S8000x128.Idx) (k : dot_S8000x128_S128x128_S8000x128_1_0_0_1_n_n.contr.Idx) :
    (dot_S8000x128_S128x128_S8000x128_1_0_0_1_n_n.rhsIdx i k 1).val = (i 1).val := by
  unfold DotDims.rhsIdx
  rw [dif_neg (show ¬(1 : Fin S128x128.rank) ∈ dot_S8000x128_S128x128_S8000x128_1_0_0_1_n_n.rhsBatch by decide), dif_pos (show (1 : Fin S128x128.rank) ∈ dot_S8000x128_S128x128_S8000x128_1_0_0_1_n_n.rhsNonContracting by decide)]
  rfl

/-- A matrix product into the zero accumulator, read at `(p, q)`: the sum over `k` of `l[p,k] · r[k,q]`. -/
theorem matmul_zero_apply {φ₁ φ₂ : FTy} (l : FVec Ideal S8000x128 φ₁) (r : FVec Ideal S128x128 φ₂) (p : Fin 8000) (q : Fin 128) :
    matmul dot_S8000x128_S128x128_S8000x128_1_0_0_1_n_n none l r (constant (F := Ideal) S8000x128 .f32 0x00000000#32) (ix2 p q)
      = ∑ k : Fin 128, l (ix2 p k) * r (ix2 k q) := by
  refine (Ideal.matmul_constant_zero_apply dot_S8000x128_S128x128_S8000x128_1_0_0_1_n_n none l r (ix2 p q)).trans ?_
  rw [← Equiv.sum_comp (ValueIdx.contrEquiv1 dot_S8000x128_S128x128_S8000x128_1_0_0_1_n_n 128 rfl rfl).symm]
  refine Finset.sum_congr rfl fun k _ => ?_
  have hk := ValueIdx.contrEquiv1_symm_val dot_S8000x128_S128x128_S8000x128_1_0_0_1_n_n 128 rfl rfl k
  have el : dot_S8000x128_S128x128_S8000x128_1_0_0_1_n_n.lhsIdx (ix2 p q) ((ValueIdx.contrEquiv1 dot_S8000x128_S128x128_S8000x128_1_0_0_1_n_n 128 rfl rfl).symm k) = ix2 p k := funext fun a => Fin.ext (by
    match a with
    | ⟨0, _⟩ => exact lhs_rows_0 _ _
    | ⟨1, _⟩ => exact (lhs_rows_1 _ _).trans hk)
  have er : dot_S8000x128_S128x128_S8000x128_1_0_0_1_n_n.rhsIdx (ix2 p q) ((ValueIdx.contrEquiv1 dot_S8000x128_S128x128_S8000x128_1_0_0_1_n_n 128 rfl rfl).symm k) = ix2 k q := funext fun a => Fin.ext (by
    match a with
    | ⟨0, _⟩ => exact (rhs_cols_0 _ _).trans hk
    | ⟨1, _⟩ => exact rhs_cols_1 _ _)
  rw [el, er]

/-- An `[a, 1]` column broadcast to `[a, b]` reads, at `(p, c)`, the column's entry of row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- The body's stored value at row `p`, channel `q` of the block, from the six loaded blocks: the two products summed, the
    bias row added, the hyperbolic tangent taken, the row's confidence multiplied in. The roundings to bf16 and the casts to
    the same shape are the identity on extended reals. -/
theorem pay_apply (x0 x1 : Vec Ideal S8000x128 .f32) (x3 x4 : Vec Ideal S128x128 .f32) (x5 : Vec Ideal S1x128 .f32)
    (x2 : Vec Ideal S8000x1 .f32) (p : Fin 8000) (q : Fin 128) :
    k0_pay1 (F := Ideal) x0 x1 x3 x4 x5 x2 (ix2 p q)
      = Ideal.tanh ((∑ k : Fin 128, x0 (ix2 p k) * x3 (ix2 k q)) + (∑ k : Fin 128, x1 (ix2 p k) * x4 (ix2 k q))
          + x5 (ix2 (0 : Fin 1) q)) * x2 (ix2 p (0 : Fin 1)) := by
  unfold k0_pay1
  simp only [shapeCast_self]
  rw [mulf_apply]
  refine congrArg₂ (· * ·) (congrArg Ideal.tanh ?_) (broadcastTo_a1_ab_apply x2 broadcasts_S8000x1_S8000x128 p q)
  rw [addf_apply, addf_apply, matmul_zero_apply, matmul_zero_apply, broadcastTo_1b_ab_apply]
  simp only [truncf_apply]

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The index maps over the 200 grid points: the three row-blocked inputs and the output sit at block `(t, 0)`, the two
    weights and the bias row at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The source-state block at point `t` is rows `8000 t … 8000 t + 7999` of its array. -/
theorem src_blk_apply (c : Dev nD) (t : Fin cfg0.N) (p : Fin 8000) (k : Fin 128) (e : Fin 1600000)
    (he : e.val = t.val * 8000 + p.val) :
    (iblk0 V c 0 t : Vec Ideal S8000x128 .f32) (ix2 p k)
      = (V c (Pipeline.arrRef spec0 0) : Cert.Spec.SE.Idx → EReal) (ix2 e k) := by
  obtain ⟨h0, h1, -⟩ := idx_facts t
  unfold iblk0
  rw [View.read_apply]
  refine congrArg (V c (Pipeline.arrRef spec0 0)) (funext fun a => Fin.ext ?_)
  match a with
  | ⟨0, _⟩ => show win0_0.index t (0 : Fin 2) * 8000 + 1 * p.val = e.val; rw [h0, he]; omega
  | ⟨1, _⟩ => show win0_0.index t (1 : Fin 2) * 128 + 1 * k.val = k.val; rw [h1]; omega

/-- The relation-vector block at point `t` is rows `8000 t … 8000 t + 7999` of its array. -/
theorem rel_blk_apply (c : Dev nD) (t : Fin cfg0.N) (p : Fin 8000) (k : Fin 128) (e : Fin 1600000)
    (he : e.val = t.val * 8000 + p.val) :
    (iblk0 V c 1 t : Vec Ideal S8000x128 .f32) (ix2 p k)
      = (V c (Pipeline.arrRef spec0 1) : Cert.Spec.SE.Idx → EReal) (ix2 e k) := by
  obtain ⟨-, -, h0, h1, -⟩ := idx_facts t
  unfold iblk0
  rw [View.read_apply]
  refine congrArg (V c (Pipeline.arrRef spec0 1)) (funext fun a => Fin.ext ?_)
  match a with
  | ⟨0, _⟩ => show win0_1.index t (0 : Fin 2) * 8000 + 1 * p.val = e.val; rw [h0, he]; omega
  | ⟨1, _⟩ => show win0_1.index t (1 : Fin 2) * 128 + 1 * k.val = k.val; rw [h1]; omega

/-- The confidence block at point `t` is rows `8000 t … 8000 t + 7999` of the confidence column. -/
theorem conf_blk_apply (c : Dev nD) (t : Fin cfg0.N) (p : Fin 8000) (z : Fin 1) (e : Fin 1600000)
    (he : e.val = t.val * 8000 + p.val) :
    (iblk0 V c 2 t : Vec Ideal S8000x1 .f32) (ix2 p z)
      = (V c (Pipeline.arrRef spec0 2) : Cert.Spec.SC.Idx → EReal) (ix2 e z) := by
  obtain ⟨-, -, -, -, h0, h1, -⟩ := idx_facts t
  unfold iblk0
  rw [View.read_apply]
  refine congrArg (V c (Pipeline.arrRef spec0 2)) (funext fun a => Fin.ext ?_)
  match a with
  | ⟨0, _⟩ => show win0_2.index t (0 : Fin 2) * 8000 + 1 * p.val = e.val; rw [h0, he]; omega
  | ⟨1, _⟩ => show win0_2.index t (1 : Fin 2) * 1 + 1 * z.val = z.val; rw [h1]; omega

/-- The source weight's one block is the whole array, at every point. -/
theorem ws_blk_apply (c : Dev nD) (t : Fin cfg0.N) (k q : Fin 128) :
    (iblk0 V c 3 t : Vec Ideal S128x128 .f32) (ix2 k q)
      = (V c (Pipeline.arrRef spec0 3) : Cert.Spec.SW.Idx → EReal) (ix2 k q) := by
  obtain ⟨-, -, -, -, -, -, h0, h1, -⟩ := idx_facts t
  unfold iblk0
  rw [View.read_apply]
  refine congrArg (V c (Pipeline.arrRef spec0 3)) (funext fun a => Fin.ext ?_)
  match a with
  | ⟨0, _⟩ => show win0_3.index t (0 : Fin 2) * 128 + 1 * k.val = k.val; rw [h0]; omega
  | ⟨1, _⟩ => show win0_3.index t (1 : Fin 2) * 128 + 1 * q.val = q.val; rw [h1]; omega

/-- The relation weight's one block is the whole array, at every point. -/
theorem wr_blk_apply (c : Dev nD) (t : Fin cfg0.N) (k q : Fin 128) :
    (iblk0 V c 4 t : Vec Ideal S128x128 .f32) (ix2 k q)
      = (V c (Pipeline.arrRef spec0 4) : Cert.Spec.SW.Idx → EReal) (ix2 k q) := by
  obtain ⟨-, -, -, -, -, -, -, -, h0, h1, -⟩ := idx_facts t
  unfold iblk0
  rw [View.read_apply]
  refine congrArg (V c (Pipeline.arrRef spec0 4)) (funext fun a => Fin.ext ?_)
  match a with
  | ⟨0, _⟩ => show win0_4.index t (0 : Fin 2) * 128 + 1 * k.val = k.val; rw [h0]; omega
  | ⟨1, _⟩ => show win0_4.index t (1 : Fin 2) * 128 + 1 * q.val = q.val; rw [h1]; omega

/-- The bias row's one block is the whole row, at every point. -/
theorem bias_blk_apply (c : Dev nD) (t : Fin cfg0.N) (z : Fin 1) (q : Fin 128) :
    (iblk0 V c 5 t : Vec Ideal S1x128 .f32) (ix2 z q)
      = (V c (Pipeline.arrRef spec0 5) : Cert.Spec.SB.Idx → EReal) (ix2 z q) := by
  obtain ⟨-, -, -, -, -, -, -, -, -, -, h0, h1, -⟩ := idx_facts t
  unfold iblk0
  rw [View.read_apply]
  refine congrArg (V c (Pipeline.arrRef spec0 5)) (funext fun a => Fin.ext ?_)
  match a with
  | ⟨0, _⟩ => show win0_5.index t (0 : Fin 2) * 1 + 1 * z.val = z.val; rw [h0]; omega
  | ⟨1, _⟩ => show win0_5.index t (1 : Fin 2) * 128 + 1 * q.val = q.val; rw [h1]; omega

/-- The message array of the six input arrays as the region finds them. -/
abbrev msgOf (c : Dev nD) : Cert.Spec.SE.Idx → EReal :=
  Cert.Spec.msg (V c (Pipeline.arrRef spec0 0)) (V c (Pipeline.arrRef spec0 1)) (V c (Pipeline.arrRef spec0 2))
    (V c (Pipeline.arrRef spec0 3)) (V c (Pipeline.arrRef spec0 4)) (V c (Pipeline.arrRef spec0 5))

/-- What point `t` writes back is block `t` of the message array computed from the six input arrays as the region found
    them: at row `p` of the block the edge is `8000 t + p`. -/
theorem flushed_eq (c : Dev nD) (t : Fin cfg0.N) :
    (dat0 (F := Ideal) V c).flushed 6 t = ((cfg0.win 6).blk t).view.read (Elt Ideal)
      (Cert.Spec.msg (V c (Pipeline.arrRef spec0 0)) (V c (Pipeline.arrRef spec0 1)) (V c (Pipeline.arrRef spec0 2))
        (V c (Pipeline.arrRef spec0 3)) (V c (Pipeline.arrRef spec0 4)) (V c (Pipeline.arrRef spec0 5))) := by
  show (cfg0.win 6).cut (grid0.coords t) ((dat0 V c).after 6 t) = _
  rw [after0_6]
  unfold out0_6
  rw [View.canon_unit_zero hz]
  simp only [View.ld_unit_zero (S := S8000x128) hz, View.ld_unit_zero (S := S128x128) hz,
    View.ld_unit_zero (S := S1x128) hz, View.ld_unit_zero (S := S8000x1) hz]
  funext j
  obtain ⟨p, q, rfl⟩ : ∃ (p : Fin 8000) (q : Fin 128), j = ix2 p q := ⟨j 0, j 1, eq_ix2 j⟩
  have ht : t.val < grid0.N := t.isLt
  rw [N_0] at ht
  have hp : p.val < 8000 := p.isLt
  obtain ⟨-, -, -, -, -, -, -, -, -, -, -, -, h60, h61⟩ := idx_facts t
  have hemb : ((cfg0.win 6).blk t).view.emb (ix2 p q) = ix2 (⟨t.val * 8000 + p.val, by omega⟩ : Fin 1600000) q := by
    funext a; apply Fin.ext
    match a with
    | ⟨0, _⟩ => show win0_6.index t (0 : Fin 2) * 8000 + 1 * p.val = t.val * 8000 + p.val; rw [h60]; omega
    | ⟨1, _⟩ => show win0_6.index t (1 : Fin 2) * 128 + 1 * q.val = q.val; rw [h61]; omega
  refine (pay_apply (iblk0 V c 0 t) (iblk0 V c 1 t) (iblk0 V c 3 t) (iblk0 V c 4 t) (iblk0 V c 5 t) (iblk0 V c 2 t) p q).trans ?_
  show _ = msgOf V c (((cfg0.win 6).blk t).view.emb (ix2 p q))
  rw [hemb]
  show _ = Cert.Spec.msgAt (V c (Pipeline.arrRef spec0 0)) (V c (Pipeline.arrRef spec0 1)) (V c (Pipeline.arrRef spec0 2))
    (V c (Pipeline.arrRef spec0 3)) (V c (Pipeline.arrRef spec0 4)) (V c (Pipeline.arrRef spec0 5)) ⟨t.val * 8000 + p.val, by omega⟩ q
  unfold Cert.Spec.msgAt
  refine congrArg₂ (· * ·) (congrArg Ideal.tanh (congrArg₂ (· + ·) (congrArg₂ (· + ·)
    (Finset.sum_congr rfl fun k _ => congrArg₂ (· * ·) (src_blk_apply V c t p k _ rfl) (ws_blk_apply V c t k q))
    (Finset.sum_congr rfl fun k _ => congrArg₂ (· * ·) (rel_blk_apply V c t p k _ rfl) (wr_blk_apply V c t k q)))
    (bias_blk_apply V c t 0 q))) (conf_blk_apply V c t p 0 _ rfl)

/-- An index of the message array is in point `t`'s block iff each coordinate is in the block's range on its axis. -/
theorem mem_blk (t : Fin cfg0.N) (i : S1600000x128.Idx) :
    i ∈ ((cfg0.win 6).blk t).view.set ↔ ∀ a : Fin 2, win0_6.index t a * S8000x128.size a ≤ (i a).val
      ∧ (i a).val < win0_6.index t a * S8000x128.size a + S8000x128.size a := by
  show i ∈ ((View.whole main_v8).slice (win0_6.rect t)).set ↔ _
  rw [View.set_slice_whole, Rect.mem_set_unit]
  exact Iff.rfl

/-- The blocks tile the array: edge `r` is in the block of point `r / 8000`. -/
theorem cover (i : S1600000x128.Idx) :
    ∃ t : Fin cfg0.N, (cfg0.win 6).flush t = true ∧ i ∈ ((cfg0.win 6).blk t).view.set := by
  have hi0 : (i 0).val < 1600000 := (i 0).isLt
  have hi1 : (i 1).val < 128 := (i 1).isLt
  obtain ⟨t, htv⟩ : ∃ t : Fin cfg0.N, t.val = (i 0).val / 8000 :=
    ⟨⟨(i 0).val / 8000, by show (i 0).val / 8000 < grid0.N; rw [N_0]; omega⟩, rfl⟩
  obtain ⟨-, -, -, -, -, -, -, -, -, -, -, -, h60, h61⟩ := idx_facts t
  refine ⟨t, flush0_6 t, ?_⟩
  rw [mem_blk]
  intro a
  match a with
  | ⟨0, _⟩ =>
    show win0_6.index t (0 : Fin 2) * 8000 ≤ (i 0).val ∧ (i 0).val < win0_6.index t (0 : Fin 2) * 8000 + 8000
    rw [h60, htv]; omega
  | ⟨1, _⟩ =>
    show win0_6.index t (1 : Fin 2) * 128 ≤ (i 1).val ∧ (i 1).val < win0_6.index t (1 : Fin 2) * 128 + 128
    rw [h61]; omega

/-- After the region's run the message array is the per-edge message of the six input arrays as the region found them. -/
theorem value (c : Dev nD) :
    (dat0 (F := Ideal) V c).arrAt 6 cfg0.N
      = Cert.Spec.msg (V c (Pipeline.arrRef spec0 0)) (V c (Pipeline.arrRef spec0 1)) (V c (Pipeline.arrRef spec0 2))
          (V c (Pipeline.arrRef spec0 3)) (V c (Pipeline.arrRef spec0 4)) (V c (Pipeline.arrRef spec0 5)) :=
  (dat0 V c).arrAt_eq_of_cover 6 (msgOf V c) (fun t _ => flushed_eq V c t) cover

end Cert.KernelIdeal.MsgRegion0

end
-- ==== Proof.MsgRegion2.lean ====
/-
  Region 2, the per-edge message kernel: after its run the output array is `Cert.Spec.msg` of the six input arrays as the
  region found them.

  The grid has 200 points; point `t` holds rows `8000 t … 8000 t + 7999` of the source-state, relation-vector and
  confidence arrays and of the output, and the whole of the two weights and the bias row. The body stores, at row `p` and
  channel `q` of the block,
      tanh( Σ_k src[p,k] · ws[k,q]  +  Σ_k rel[p,k] · wr[k,q]  +  b[0,q] ) · conf[p,0],
  the two sums being the matrix products into a zero accumulator read at an index (the roundings of the operands to bf16
  are the identity on extended reals). Read through the blocks, that is the message of edge `8000 t + p`; the 200 blocks
  tile the 1600000 rows, edge `r` lying in the block of point `r / 8000`.
-/
import proofs.«421721_j14199161880576_1_alg».proof.Proof.Gen.KernelIdeal.Frame
import proofs.«421721_j14199161880576_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.MsgRegion2

open Idealize.ShloMosaic Idealize.ShloMosaic.TcCoe Idealize.SL.Sem Idealize.ShloMosaic.ValueIdx
open Cert.KernelIdeal Cert.KernelIdeal.Gen

/-! ## The stored value at an index -/

/-- Row `p` of the left operand against column `q` of the right one: the left operand's row axis is the output's. -/
theorem lhs_rows_0 (i : S8000x128.Idx) (k : dot_S8000x128_S128x128_S8000x128_1_0_0_1_n_n.contr.Idx) :
    (dot_S8000x128_S128x128_S8000x128_1_0_0_1_n_n.lhsIdx i k 0).val = (i 0).val := by
  unfold DotDims.lhsIdx
  rw [dif_neg (show ¬(0 : Fin S8000x128.rank) ∈ dot_S8000x128_S128x128_S8000x128_1_0_0_1_n_n.lhsBatch by decide), dif_pos (show (0 : Fin S8000x128.rank) ∈ dot_S8000x128_S128x128_S8000x128_1_0_0_1_n_n.lhsNonContracting by decide)]
  rfl
/-- The left operand's column axis is the contracted one. -/
theorem lhs_rows_1 (i : S8000x128.Idx) (k : dot_S8000x128_S128x128_S8000x128_1_0_0_1_n_n.contr.Idx) :
    (dot_S8000x128_S128x128_S8000x128_1_0_0_1_n_n.lhsIdx i k 1).val = (k ⟨0, by decide⟩).val :=
  dot_S8000x128_S128x128_S8000x128_1_0_0_1_n_n.lhsIdx_val_of_single rfl i k
/-- The right operand's row axis is the contracted one. -/
theorem rhs_cols_0 (i : S8000x128.Idx) (k : dot_S8000x128_S128x128_S8000x128_1_0_0_1_n_n.contr.Idx) :
    (dot_S8000x128_S128x128_S8000x128_1_0_0_1_n_n.rhsIdx i k 0).val = (k ⟨0, by decide⟩).val :=
  dot_S8000x128_S128x128_S8000x128_1_0_0_1_n_n.rhsIdx_val_of_single rfl i k
/-- The right operand's column axis is the output's. -/
theorem rhs_cols_1 (i : S8000x128.Idx) (k : dot_S8000x128_S128x128_S8000x128_1_0_0_1_n_n.contr.Idx) :
    (dot_S8000x128_S128x128_S8000x128_1_0_0_1_n_n.rhsIdx i k 1).val = (i 1).val := by
  unfold DotDims.rhsIdx
  rw [dif_neg (show ¬(1 : Fin S128x128.rank) ∈ dot_S8000x128_S128x128_S8000x128_1_0_0_1_n_n.rhsBatch by decide), dif_pos (show (1 : Fin S128x128.rank) ∈ dot_S8000x128_S128x128_S8000x128_1_0_0_1_n_n.rhsNonContracting by decide)]
  rfl

/-- A matrix product into the zero accumulator, read at `(p, q)`: the sum over `k` of `l[p,k] · r[k,q]`. -/
theorem matmul_zero_apply {φ₁ φ₂ : FTy} (l : FVec Ideal S8000x128 φ₁) (r : FVec Ideal S128x128 φ₂) (p : Fin 8000) (q : Fin 128) :
    matmul dot_S8000x128_S128x128_S8000x128_1_0_0_1_n_n none l r (constant (F := Ideal) S8000x128 .f32 0x00000000#32) (ix2 p q)
      = ∑ k : Fin 128, l (ix2 p k) * r (ix2 k q) := by
  refine (Ideal.matmul_constant_zero_apply dot_S8000x128_S128x128_S8000x128_1_0_0_1_n_n none l r (ix2 p q)).trans ?_
  rw [← Equiv.sum_comp (ValueIdx.contrEquiv1 dot_S8000x128_S128x128_S8000x128_1_0_0_1_n_n 128 rfl rfl).symm]
  refine Finset.sum_congr rfl fun k _ => ?_
  have hk := ValueIdx.contrEquiv1_symm_val dot_S8000x128_S128x128_S8000x128_1_0_0_1_n_n 128 rfl rfl k
  have el : dot_S8000x128_S128x128_S8000x128_1_0_0_1_n_n.lhsIdx (ix2 p q) ((ValueIdx.contrEquiv1 dot_S8000x128_S128x128_S8000x128_1_0_0_1_n_n 128 rfl rfl).symm k) = ix2 p k := funext fun a => Fin.ext (by
    match a with
    | ⟨0, _⟩ => exact lhs_rows_0 _ _
    | ⟨1, _⟩ => exact (lhs_rows_1 _ _).trans hk)
  have er : dot_S8000x128_S128x128_S8000x128_1_0_0_1_n_n.rhsIdx (ix2 p q) ((ValueIdx.contrEquiv1 dot_S8000x128_S128x128_S8000x128_1_0_0_1_n_n 128 rfl rfl).symm k) = ix2 k q := funext fun a => Fin.ext (by
    match a with
    | ⟨0, _⟩ => exact (rhs_cols_0 _ _).trans hk
    | ⟨1, _⟩ => exact rhs_cols_1 _ _)
  rw [el, er]

/-- An `[a, 1]` column broadcast to `[a, b]` reads, at `(p, c)`, the column's entry of row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- The body's stored value at row `p`, channel `q` of the block, from the six loaded blocks: the two products summed, the
    bias row added, the hyperbolic tangent taken, the row's confidence multiplied in. The roundings to bf16 and the casts to
    the same shape are the identity on extended reals. -/
theorem pay_apply (x0 x1 : Vec Ideal S8000x128 .f32) (x3 x4 : Vec Ideal S128x128 .f32) (x5 : Vec Ideal S1x128 .f32)
    (x2 : Vec Ideal S8000x1 .f32) (p : Fin 8000) (q : Fin 128) :
    k2_pay1 (F := Ideal) x0 x1 x3 x4 x5 x2 (ix2 p q)
      = Ideal.tanh ((∑ k : Fin 128, x0 (ix2 p k) * x3 (ix2 k q)) + (∑ k : Fin 128, x1 (ix2 p k) * x4 (ix2 k q))
          + x5 (ix2 (0 : Fin 1) q)) * x2 (ix2 p (0 : Fin 1)) := by
  unfold k2_pay1
  simp only [shapeCast_self]
  rw [mulf_apply]
  refine congrArg₂ (· * ·) (congrArg Ideal.tanh ?_) (broadcastTo_a1_ab_apply x2 broadcasts_S8000x1_S8000x128 p q)
  rw [addf_apply, addf_apply, matmul_zero_apply, matmul_zero_apply, broadcastTo_1b_ab_apply]
  simp only [truncf_apply]

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The index maps over the 200 grid points: the three row-blocked inputs and the output sit at block `(t, 0)`, the two
    weights and the bias row at block `(0, 0)`. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- The source-state block at point `t` is rows `8000 t … 8000 t + 7999` of its array. -/
theorem src_blk_apply (c : Dev nD) (t : Fin cfg2.N) (p : Fin 8000) (k : Fin 128) (e : Fin 1600000)
    (he : e.val = t.val * 8000 + p.val) :
    (iblk2 V c 0 t : Vec Ideal S8000x128 .f32) (ix2 p k)
      = (V c (Pipeline.arrRef spec2 0) : Cert.Spec.SE.Idx → EReal) (ix2 e k) := by
  obtain ⟨h0, h1, -⟩ := idx_facts t
  unfold iblk2
  rw [View.read_apply]
  refine congrArg (V c (Pipeline.arrRef spec2 0)) (funext fun a => Fin.ext ?_)
  match a with
  | ⟨0, _⟩ => show win2_0.index t (0 : Fin 2) * 8000 + 1 * p.val = e.val; rw [h0, he]; omega
  | ⟨1, _⟩ => show win2_0.index t (1 : Fin 2) * 128 + 1 * k.val = k.val; rw [h1]; omega

/-- The relation-vector block at point `t` is rows `8000 t … 8000 t + 7999` of its array. -/
theorem rel_blk_apply (c : Dev nD) (t : Fin cfg2.N) (p : Fin 8000) (k : Fin 128) (e : Fin 1600000)
    (he : e.val = t.val * 8000 + p.val) :
    (iblk2 V c 1 t : Vec Ideal S8000x128 .f32) (ix2 p k)
      = (V c (Pipeline.arrRef spec2 1) : Cert.Spec.SE.Idx → EReal) (ix2 e k) := by
  obtain ⟨-, -, h0, h1, -⟩ := idx_facts t
  unfold iblk2
  rw [View.read_apply]
  refine congrArg (V c (Pipeline.arrRef spec2 1)) (funext fun a => Fin.ext ?_)
  match a with
  | ⟨0, _⟩ => show win2_1.index t (0 : Fin 2) * 8000 + 1 * p.val = e.val; rw [h0, he]; omega
  | ⟨1, _⟩ => show win2_1.index t (1 : Fin 2) * 128 + 1 * k.val = k.val; rw [h1]; omega

/-- The confidence block at point `t` is rows `8000 t … 8000 t + 7999` of the confidence column. -/
theorem conf_blk_apply (c : Dev nD) (t : Fin cfg2.N) (p : Fin 8000) (z : Fin 1) (e : Fin 1600000)
    (he : e.val = t.val * 8000 + p.val) :
    (iblk2 V c 2 t : Vec Ideal S8000x1 .f32) (ix2 p z)
      = (V c (Pipeline.arrRef spec2 2) : Cert.Spec.SC.Idx → EReal) (ix2 e z) := by
  obtain ⟨-, -, -, -, h0, h1, -⟩ := idx_facts t
  unfold iblk2
  rw [View.read_apply]
  refine congrArg (V c (Pipeline.arrRef spec2 2)) (funext fun a => Fin.ext ?_)
  match a with
  | ⟨0, _⟩ => show win2_2.index t (0 : Fin 2) * 8000 + 1 * p.val = e.val; rw [h0, he]; omega
  | ⟨1, _⟩ => show win2_2.index t (1 : Fin 2) * 1 + 1 * z.val = z.val; rw [h1]; omega

/-- The source weight's one block is the whole array, at every point. -/
theorem ws_blk_apply (c : Dev nD) (t : Fin cfg2.N) (k q : Fin 128) :
    (iblk2 V c 3 t : Vec Ideal S128x128 .f32) (ix2 k q)
      = (V c (Pipeline.arrRef spec2 3) : Cert.Spec.SW.Idx → EReal) (ix2 k q) := by
  obtain ⟨-, -, -, -, -, -, h0, h1, -⟩ := idx_facts t
  unfold iblk2
  rw [View.read_apply]
  refine congrArg (V c (Pipeline.arrRef spec2 3)) (funext fun a => Fin.ext ?_)
  match a with
  | ⟨0, _⟩ => show win2_3.index t (0 : Fin 2) * 128 + 1 * k.val = k.val; rw [h0]; omega
  | ⟨1, _⟩ => show win2_3.index t (1 : Fin 2) * 128 + 1 * q.val = q.val; rw [h1]; omega

/-- The relation weight's one block is the whole array, at every point. -/
theorem wr_blk_apply (c : Dev nD) (t : Fin cfg2.N) (k q : Fin 128) :
    (iblk2 V c 4 t : Vec Ideal S128x128 .f32) (ix2 k q)
      = (V c (Pipeline.arrRef spec2 4) : Cert.Spec.SW.Idx → EReal) (ix2 k q) := by
  obtain ⟨-, -, -, -, -, -, -, -, h0, h1, -⟩ := idx_facts t
  unfold iblk2
  rw [View.read_apply]
  refine congrArg (V c (Pipeline.arrRef spec2 4)) (funext fun a => Fin.ext ?_)
  match a with
  | ⟨0, _⟩ => show win2_4.index t (0 : Fin 2) * 128 + 1 * k.val = k.val; rw [h0]; omega
  | ⟨1, _⟩ => show win2_4.index t (1 : Fin 2) * 128 + 1 * q.val = q.val; rw [h1]; omega

/-- The bias row's one block is the whole row, at every point. -/
theorem bias_blk_apply (c : Dev nD) (t : Fin cfg2.N) (z : Fin 1) (q : Fin 128) :
    (iblk2 V c 5 t : Vec Ideal S1x128 .f32) (ix2 z q)
      = (V c (Pipeline.arrRef spec2 5) : Cert.Spec.SB.Idx → EReal) (ix2 z q) := by
  obtain ⟨-, -, -, -, -, -, -, -, -, -, h0, h1, -⟩ := idx_facts t
  unfold iblk2
  rw [View.read_apply]
  refine congrArg (V c (Pipeline.arrRef spec2 5)) (funext fun a => Fin.ext ?_)
  match a with
  | ⟨0, _⟩ => show win2_5.index t (0 : Fin 2) * 1 + 1 * z.val = z.val; rw [h0]; omega
  | ⟨1, _⟩ => show win2_5.index t (1 : Fin 2) * 128 + 1 * q.val = q.val; rw [h1]; omega

/-- The message array of the six input arrays as the region finds them. -/
abbrev msgOf (c : Dev nD) : Cert.Spec.SE.Idx → EReal :=
  Cert.Spec.msg (V c (Pipeline.arrRef spec2 0)) (V c (Pipeline.arrRef spec2 1)) (V c (Pipeline.arrRef spec2 2))
    (V c (Pipeline.arrRef spec2 3)) (V c (Pipeline.arrRef spec2 4)) (V c (Pipeline.arrRef spec2 5))

/-- What point `t` writes back is block `t` of the message array computed from the six input arrays as the region found
    them: at row `p` of the block the edge is `8000 t + p`. -/
theorem flushed_eq (c : Dev nD) (t : Fin cfg2.N) :
    (dat2 (F := Ideal) V c).flushed 6 t = ((cfg2.win 6).blk t).view.read (Elt Ideal)
      (Cert.Spec.msg (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5))) := by
  show (cfg2.win 6).cut (grid2.coords t) ((dat2 V c).after 6 t) = _
  rw [after2_6]
  unfold out2_6
  rw [View.canon_unit_zero hz]
  simp only [View.ld_unit_zero (S := S8000x128) hz, View.ld_unit_zero (S := S128x128) hz,
    View.ld_unit_zero (S := S1x128) hz, View.ld_unit_zero (S := S8000x1) hz]
  funext j
  obtain ⟨p, q, rfl⟩ : ∃ (p : Fin 8000) (q : Fin 128), j = ix2 p q := ⟨j 0, j 1, eq_ix2 j⟩
  have ht : t.val < grid2.N := t.isLt
  rw [N_2] at ht
  have hp : p.val < 8000 := p.isLt
  obtain ⟨-, -, -, -, -, -, -, -, -, -, -, -, h60, h61⟩ := idx_facts t
  have hemb : ((cfg2.win 6).blk t).view.emb (ix2 p q) = ix2 (⟨t.val * 8000 + p.val, by omega⟩ : Fin 1600000) q := by
    funext a; apply Fin.ext
    match a with
    | ⟨0, _⟩ => show win2_6.index t (0 : Fin 2) * 8000 + 1 * p.val = t.val * 8000 + p.val; rw [h60]; omega
    | ⟨1, _⟩ => show win2_6.index t (1 : Fin 2) * 128 + 1 * q.val = q.val; rw [h61]; omega
  refine (pay_apply (iblk2 V c 0 t) (iblk2 V c 1 t) (iblk2 V c 3 t) (iblk2 V c 4 t) (iblk2 V c 5 t) (iblk2 V c 2 t) p q).trans ?_
  show _ = msgOf V c (((cfg2.win 6).blk t).view.emb (ix2 p q))
  rw [hemb]
  show _ = Cert.Spec.msgAt (V c (Pipeline.arrRef spec2 0)) (V c (Pipeline.arrRef spec2 1)) (V c (Pipeline.arrRef spec2 2))
    (V c (Pipeline.arrRef spec2 3)) (V c (Pipeline.arrRef spec2 4)) (V c (Pipeline.arrRef spec2 5)) ⟨t.val * 8000 + p.val, by omega⟩ q
  unfold Cert.Spec.msgAt
  refine congrArg₂ (· * ·) (congrArg Ideal.tanh (congrArg₂ (· + ·) (congrArg₂ (· + ·)
    (Finset.sum_congr rfl fun k _ => congrArg₂ (· * ·) (src_blk_apply V c t p k _ rfl) (ws_blk_apply V c t k q))
    (Finset.sum_congr rfl fun k _ => congrArg₂ (· * ·) (rel_blk_apply V c t p k _ rfl) (wr_blk_apply V c t k q)))
    (bias_blk_apply V c t 0 q))) (conf_blk_apply V c t p 0 _ rfl)

/-- An index of the message array is in point `t`'s block iff each coordinate is in the block's range on its axis. -/
theorem mem_blk (t : Fin cfg2.N) (i : S1600000x128.Idx) :
    i ∈ ((cfg2.win 6).blk t).view.set ↔ ∀ a : Fin 2, win2_6.index t a * S8000x128.size a ≤ (i a).val
      ∧ (i a).val < win2_6.index t a * S8000x128.size a + S8000x128.size a := by
  show i ∈ ((View.whole main_v14).slice (win2_6.rect t)).set ↔ _
  rw [View.set_slice_whole, Rect.mem_set_unit]
  exact Iff.rfl

/-- The blocks tile the array: edge `r` is in the block of point `r / 8000`. -/
theorem cover (i : S1600000x128.Idx) :
    ∃ t : Fin cfg2.N, (cfg2.win 6).flush t = true ∧ i ∈ ((cfg2.win 6).blk t).view.set := by
  have hi0 : (i 0).val < 1600000 := (i 0).isLt
  have hi1 : (i 1).val < 128 := (i 1).isLt
  obtain ⟨t, htv⟩ : ∃ t : Fin cfg2.N, t.val = (i 0).val / 8000 :=
    ⟨⟨(i 0).val / 8000, by show (i 0).val / 8000 < grid2.N; rw [N_2]; omega⟩, rfl⟩
  obtain ⟨-, -, -, -, -, -, -, -, -, -, -, -, h60, h61⟩ := idx_facts t
  refine ⟨t, flush2_6 t, ?_⟩
  rw [mem_blk]
  intro a
  match a with
  | ⟨0, _⟩ =>
    show win2_6.index t (0 : Fin 2) * 8000 ≤ (i 0).val ∧ (i 0).val < win2_6.index t (0 : Fin 2) * 8000 + 8000
    rw [h60, htv]; omega
  | ⟨1, _⟩ =>
    show win2_6.index t (1 : Fin 2) * 128 ≤ (i 1).val ∧ (i 1).val < win2_6.index t (1 : Fin 2) * 128 + 128
    rw [h61]; omega

/-- After the region's run the message array is the per-edge message of the six input arrays as the region found them. -/
theorem value (c : Dev nD) :
    (dat2 (F := Ideal) V c).arrAt 6 cfg2.N
      = Cert.Spec.msg (V c (Pipeline.arrRef spec2 0)) (V c (Pipeline.arrRef spec2 1)) (V c (Pipeline.arrRef spec2 2))
          (V c (Pipeline.arrRef spec2 3)) (V c (Pipeline.arrRef spec2 4)) (V c (Pipeline.arrRef spec2 5)) :=
  (dat2 V c).arrAt_eq_of_cover 6 (msgOf V c) (fun t _ => flushed_eq V c t) cover

end Cert.KernelIdeal.MsgRegion2

end
-- ==== Proof.UpdRegion1.lean ====
import proofs.«421721_j14199161880576_1_alg».proof.Proof.Gen.KernelIdeal.Frame
import proofs.«421721_j14199161880576_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.UpdRegion1

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-! ## The body's stored value at an index

The body multiplies the block of node states by the transposed weight, adds the bias row and the block of aggregated
messages, and takes the hyperbolic tangent. On extended reals the roundings to bf16 and the casts to the same shape are
the identity, and the product into the zero accumulator is the plain sum over the contracted axis. -/

/-- The left operand's row axis is the output's row axis. -/
theorem lhs_rows_0 (i : S5000x128.Idx) (k : dot_S5000x128_S128x128_S5000x128_1_0_0_1_n_n.contr.Idx) :
    (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column axis is the contracted one. -/
theorem lhs_rows_1 (i : S5000x128.Idx) (k : dot_S5000x128_S128x128_S5000x128_1_0_0_1_n_n.contr.Idx) :
    (dot_S5000x128_S128x128_S5000x128_1_0_0_1_n_n.lhsIdx i k 1).val = (k ⟨0, by decide⟩).val :=
  dot_S5000x128_S128x128_S5000x128_1_0_0_1_n_n.lhsIdx_val_of_single rfl i k
/-- The right operand's row axis is the contracted one. -/
theorem rhs_cols_0 (i : S5000x128.Idx) (k : dot_S5000x128_S128x128_S5000x128_1_0_0_1_n_n.contr.Idx) :
    (dot_S5000x128_S128x128_S5000x128_1_0_0_1_n_n.rhsIdx i k 0).val = (k ⟨0, by decide⟩).val :=
  dot_S5000x128_S128x128_S5000x128_1_0_0_1_n_n.rhsIdx_val_of_single rfl i k
/-- The right operand's column axis is the output's column axis. -/
theorem rhs_cols_1 (i : S5000x128.Idx) (k : dot_S5000x128_S128x128_S5000x128_1_0_0_1_n_n.contr.Idx) :
    (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A matrix product into the zero accumulator, read at `(p, q)`: the sum over `k` of `l[p,k] · r[k,q]`. -/
theorem matmul_zero_apply {φ₁ φ₂ : FTy} (l : FVec Ideal S5000x128 φ₁) (r : FVec Ideal S128x128 φ₂) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  refine (Ideal.matmul_constant_zero_apply dot_S5000x128_S128x128_S5000x128_1_0_0_1_n_n none l r (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_rows_0 _ _
    | ⟨1, _⟩ => exact (lhs_rows_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_cols_0 _ _).trans hk
    | ⟨1, _⟩ => exact rhs_cols_1 _ _)
  rw [el, er]

/-- A vector's hyperbolic tangent at an index is the element's. -/
theorem tanh_apply {s : Shape} {φ : FTy} (a : FVec Ideal s φ) (i : s.Idx) : tanh a i = Ideal.tanh (a i) := rfl

/-- The body's stored value at row `p`, channel `q` of the block, from the four loaded blocks: row `p` of the node
    states against column `q` of the weight, plus the bias at `q`, plus the aggregated message at `(p, q)`, under the
    hyperbolic tangent. -/
theorem pay_apply (x0 x1 : Vec Ideal S5000x128 .f32) (x2 : Vec Ideal S128x128 .f32) (x3 : Vec Ideal S1x128 .f32)
    (p : Fin 5000) (q : Fin 128) :
    k1_pay1 (F := Ideal) x0 x2 x3 x1 (ix2 p q)
      = Ideal.tanh ((∑ k : Fin 128, x0 (ix2 p k) * x2 (ix2 k q)) + x3 (ix2 (0 : Fin 1) q) + x1 (ix2 p q)) := by
  unfold k1_pay1
  simp only [shapeCast_self]
  rw [tanh_apply, addf_apply, addf_apply, matmul_zero_apply, broadcastTo_1b_ab_apply]
  rfl

/-- The same against the node update of four whole arrays: when row `p` of the block of node states is row `i 0` of the
    array `h`, the block of aggregated messages at `(p, q)` is `agg` at `i`, the weight and bias blocks are the whole arrays,
    and `i`'s channel is `q`, the stored value is the update at `i`. -/
theorem pay_eq_upd (x0 x1 : Vec Ideal S5000x128 .f32) (x2 : Vec Ideal S128x128 .f32) (x3 : Vec Ideal S1x128 .f32)
    (h agg : Cert.Spec.SN.Idx → EReal) (w : Cert.Spec.SW.Idx → EReal) (b : Cert.Spec.SB.Idx → EReal)
    (p : Fin 5000) (q : Fin 128) (i : Cert.Spec.SN.Idx) (hq : (i 1).val = q.val)
    (h0 : ∀ k : Fin 128, x0 (ix2 p k) = h (ix2 (i 0) k)) (h1 : x1 (ix2 p q) = agg i) (h2 : x2 = w) (h3 : x3 = b) :
    k1_pay1 (F := Ideal) x0 x2 x3 x1 (ix2 p q) = Cert.Spec.upd h agg w b i := by
  rw [pay_apply, h1, h2, h3]
  obtain ⟨n, o, rfl⟩ : ∃ (n : Fin 100000) (o : Fin 128), i = ix2 n o := ⟨i 0, i 1, eq_ix2 i⟩
  obtain rfl : o = q := Fin.ext hq
  rw [Cert.Spec.upd_apply]
  unfold Cert.Spec.updAt
  exact congrArg Ideal.tanh (congrArg (· + agg (ix2 n o)) (congrArg (· + b (ix2 (0 : Fin 1) o)) (Finset.sum_congr rfl fun k _ => by rw [h0 k])))

/-! ## From blocks to the array

The grid has 20 points. At point `t` the node states, the aggregated messages and the output are at rows
`5000·t … 5000·t + 4999` of their arrays; the weight and the bias row are whole at every point. So what point `t` writes
back is rows `5000·t …` of the node update of the four input arrays, and the 20 blocks tile the 100000 rows. -/

theorem hz : (![0, 0] : Fin 2 → Nat) = fun _ => 0 := funext fun a => by fin_cases a <;> rfl

/-- The body's one store covers the whole output block and its four loads read whole blocks: what it leaves in the output
    window's buffer is the stored value of the four input blocks. -/
theorem stored_eq (x0 x1 : Vec Ideal S5000x128 .f32) (x2 : Vec Ideal S128x128 .f32) (x3 : Vec Ideal S1x128 .f32) :
    out1_4 (F := Ideal) x0 x1 x2 x3 = k1_pay1 x0 x2 x3 x1 := by
  unfold out1_4
  rw [View.canon_unit_zero hz]
  simp only [View.ld_unit_zero (S := S5000x128) hz, View.ld_unit_zero (S := S128x128) hz, View.ld_unit_zero (S := S1x128) hz]

/-- The printed index maps, decided over the grid: the row-blocked windows are at block `(t, 0)`, the weight and the bias
    at block `(0, 0)`. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The channel of an element of point `t`'s output block is its channel inside the block. -/
theorem out_channel (t : Fin cfg1.N) (p : Fin 5000) (q : Fin 128) :
    ((((cfg1.win 4).blk t).view.emb (ix2 p q) : S100000x128.Idx) 1).val = q.val := by
  obtain ⟨e00, e01, e10, e11, e20, e21, e30, e31, e40, e41⟩ := idx_facts t
  show win1_4.index t (1 : Fin 2) * 128 + 1 * q.val = q.val
  omega

/-- Row `p` of point `t`'s block of node states is the array's row of the output block's row `p`. -/
theorem read_states (c : Dev nD) (t : Fin cfg1.N) (p : Fin 5000) (q k : Fin 128) :
    (iblk1 V c 0 t : Vec Ideal S5000x128 .f32) (ix2 p k)
      = (V c (Pipeline.arrRef spec1 0) : S100000x128.Idx → EReal)
          (ix2 ((((cfg1.win 4).blk t).view.emb (ix2 p q) : S100000x128.Idx) 0) k) := by
  obtain ⟨e00, e01, e10, e11, e20, e21, e30, e31, e40, e41⟩ := idx_facts t
  show V c (Pipeline.arrRef spec1 0) (((cfg1.win 0).blk t).view.emb (ix2 p k)) = V c (Pipeline.arrRef spec1 0) _
  refine congrArg (V c (Pipeline.arrRef spec1 0)) (funext fun a => Fin.ext ?_)
  match a with
  | ⟨0, _⟩ => show win1_0.index t (0 : Fin 2) * 5000 + 1 * p.val = win1_4.index t (0 : Fin 2) * 5000 + 1 * p.val; omega
  | ⟨1, _⟩ => show win1_0.index t (1 : Fin 2) * 128 + 1 * k.val = k.val; omega

/-- Point `t`'s block of aggregated messages sits in its array where the output block sits in the output array. -/
theorem read_agg (c : Dev nD) (t : Fin cfg1.N) (p : Fin 5000) (q : Fin 128) :
    (iblk1 V c 1 t : Vec Ideal S5000x128 .f32) (ix2 p q)
      = (V c (Pipeline.arrRef spec1 1) : S100000x128.Idx → EReal) (((cfg1.win 4).blk t).view.emb (ix2 p q)) := by
  obtain ⟨e00, e01, e10, e11, e20, e21, e30, e31, e40, e41⟩ := idx_facts t
  show V c (Pipeline.arrRef spec1 1) (((cfg1.win 1).blk t).view.emb (ix2 p q)) = V c (Pipeline.arrRef spec1 1) (((cfg1.win 4).blk t).view.emb (ix2 p q))
  refine congrArg (V c (Pipeline.arrRef spec1 1)) (funext fun a => Fin.ext ?_)
  match a with
  | ⟨0, _⟩ => show win1_1.index t (0 : Fin 2) * 5000 + 1 * p.val = win1_4.index t (0 : Fin 2) * 5000 + 1 * p.val; omega
  | ⟨1, _⟩ => show win1_1.index t (1 : Fin 2) * 128 + 1 * q.val = win1_4.index t (1 : Fin 2) * 128 + 1 * q.val; omega

/-- The weight's one block is the whole weight, at every point. -/
theorem read_weight (c : Dev nD) (t : Fin cfg1.N) :
    (iblk1 V c 2 t : Vec Ideal S128x128 .f32) = V c (Pipeline.arrRef spec1 2) := by
  obtain ⟨e00, e01, e10, e11, e20, e21, e30, e31, e40, e41⟩ := idx_facts t
  funext y
  show V c (Pipeline.arrRef spec1 2) (((cfg1.win 2).blk t).view.emb y) = V c (Pipeline.arrRef spec1 2) y
  refine congrArg (V c (Pipeline.arrRef spec1 2)) (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- The bias row's one block is the whole row, at every point. -/
theorem read_bias (c : Dev nD) (t : Fin cfg1.N) :
    (iblk1 V c 3 t : Vec Ideal S1x128 .f32) = V c (Pipeline.arrRef spec1 3) := by
  obtain ⟨e00, e01, e10, e11, e20, e21, e30, e31, e40, e41⟩ := idx_facts t
  funext y
  show V c (Pipeline.arrRef spec1 3) (((cfg1.win 3).blk t).view.emb y) = V c (Pipeline.arrRef spec1 3) y
  refine congrArg (V c (Pipeline.arrRef spec1 3)) (funext fun a => Fin.ext ?_)
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- WHAT POINT `t` WRITES BACK is block `t` of the node update of the four arrays as the region finds them. -/
theorem flushed_eq (c : Dev nD) (t : Fin cfg1.N) :
    (dat1 (F := Ideal) V c).flushed 4 t = ((cfg1.win 4).blk t).view.read (Elt Ideal)
      (Cert.Spec.upd (V c (Pipeline.arrRef spec1 0)) (V c (Pipeline.arrRef spec1 1)) (V c (Pipeline.arrRef spec1 2))
        (V c (Pipeline.arrRef spec1 3))) := by
  show (cfg1.win 4).cut (grid1.coords t) ((dat1 V c).after 4 t) = _
  rw [after1_4, stored_eq (iblk1 V c 0 t) (iblk1 V c 1 t) (iblk1 V c 2 t) (iblk1 V c 3 t)]
  funext j
  obtain ⟨p, q, rfl⟩ : ∃ (p : Fin 5000) (q : Fin 128), j = ix2 p q := ⟨j 0, j 1, eq_ix2 j⟩
  exact pay_eq_upd (iblk1 V c 0 t) (iblk1 V c 1 t) (iblk1 V c 2 t) (iblk1 V c 3 t) _ _ _ _ p q _ (out_channel t p q)
    (fun k => read_states V c t p q k) (read_agg V c t p q) (read_weight V c t) (read_bias V c t)

/-- An index of the output array is in point `t`'s block iff each coordinate is in the block's range on its axis. -/
theorem mem_blk (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v12).slice (win1_4.rect t)).set ↔ _
  rw [View.set_slice_whole, Rect.mem_set_unit]
  exact Iff.rfl

/-- Every index of the output array is in the block of the point its row falls to: row `r` in point `r / 5000`'s. -/
theorem cover (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : grid1.N = 20 := N_1
  obtain ⟨t, ht⟩ : ∃ t : Fin cfg1.N, t.val = (i 0).val / 5000 := ⟨⟨(i 0).val / 5000, by show _ < grid1.N; rw [hN]; omega⟩, rfl⟩
  obtain ⟨e00, e01, e10, e11, e20, e21, e30, e31, e40, e41⟩ := idx_facts t
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- THE OUTPUT ARRAY after the region's run is the node update of the region's input arrays as it found them. -/
theorem value (c : Dev nD) :
    (dat1 (F := Ideal) V c).arrAt 4 cfg1.N
      = Cert.Spec.upd (V c (Pipeline.arrRef spec1 0)) (V c (Pipeline.arrRef spec1 1)) (V c (Pipeline.arrRef spec1 2))
          (V c (Pipeline.arrRef spec1 3)) :=
  (dat1 (F := Ideal) V c).arrAt_eq_of_cover 4 _ (fun t _ => flushed_eq V c t) cover

end Cert.KernelIdeal.UpdRegion1

end
-- ==== Proof.UpdRegion3.lean ====
import proofs.«421721_j14199161880576_1_alg».proof.Proof.Gen.KernelIdeal.Frame
import proofs.«421721_j14199161880576_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.UpdRegion3

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-! ## The body's stored value at an index

The body multiplies the block of node states by the transposed weight, adds the bias row and the block of aggregated
messages, and takes the hyperbolic tangent. On extended reals the roundings to bf16 and the casts to the same shape are
the identity, and the product into the zero accumulator is the plain sum over the contracted axis. -/

/-- The left operand's row axis is the output's row axis. -/
theorem lhs_rows_0 (i : S5000x128.Idx) (k : dot_S5000x128_S128x128_S5000x128_1_0_0_1_n_n.contr.Idx) :
    (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column axis is the contracted one. -/
theorem lhs_rows_1 (i : S5000x128.Idx) (k : dot_S5000x128_S128x128_S5000x128_1_0_0_1_n_n.contr.Idx) :
    (dot_S5000x128_S128x128_S5000x128_1_0_0_1_n_n.lhsIdx i k 1).val = (k ⟨0, by decide⟩).val :=
  dot_S5000x128_S128x128_S5000x128_1_0_0_1_n_n.lhsIdx_val_of_single rfl i k
/-- The right operand's row axis is the contracted one. -/
theorem rhs_cols_0 (i : S5000x128.Idx) (k : dot_S5000x128_S128x128_S5000x128_1_0_0_1_n_n.contr.Idx) :
    (dot_S5000x128_S128x128_S5000x128_1_0_0_1_n_n.rhsIdx i k 0).val = (k ⟨0, by decide⟩).val :=
  dot_S5000x128_S128x128_S5000x128_1_0_0_1_n_n.rhsIdx_val_of_single rfl i k
/-- The right operand's column axis is the output's column axis. -/
theorem rhs_cols_1 (i : S5000x128.Idx) (k : dot_S5000x128_S128x128_S5000x128_1_0_0_1_n_n.contr.Idx) :
    (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A matrix product into the zero accumulator, read at `(p, q)`: the sum over `k` of `l[p,k] · r[k,q]`. -/
theorem matmul_zero_apply {φ₁ φ₂ : FTy} (l : FVec Ideal S5000x128 φ₁) (r : FVec Ideal S128x128 φ₂) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  refine (Ideal.matmul_constant_zero_apply dot_S5000x128_S128x128_S5000x128_1_0_0_1_n_n none l r (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_rows_0 _ _
    | ⟨1, _⟩ => exact (lhs_rows_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_cols_0 _ _).trans hk
    | ⟨1, _⟩ => exact rhs_cols_1 _ _)
  rw [el, er]

/-- A vector's hyperbolic tangent at an index is the element's. -/
theorem tanh_apply {s : Shape} {φ : FTy} (a : FVec Ideal s φ) (i : s.Idx) : tanh a i = Ideal.tanh (a i) := rfl

/-- The body's stored value at row `p`, channel `q` of the block, from the four loaded blocks: row `p` of the node
    states against column `q` of the weight, plus the bias at `q`, plus the aggregated message at `(p, q)`, under the
    hyperbolic tangent. -/
theorem pay_apply (x0 x1 : Vec Ideal S5000x128 .f32) (x2 : Vec Ideal S128x128 .f32) (x3 : Vec Ideal S1x128 .f32)
    (p : Fin 5000) (q : Fin 128) :
    k3_pay1 (F := Ideal) x0 x2 x3 x1 (ix2 p q)
      = Ideal.tanh ((∑ k : Fin 128, x0 (ix2 p k) * x2 (ix2 k q)) + x3 (ix2 (0 : Fin 1) q) + x1 (ix2 p q)) := by
  unfold k3_pay1
  simp only [shapeCast_self]
  rw [tanh_apply, addf_apply, addf_apply, matmul_zero_apply, broadcastTo_1b_ab_apply]
  rfl

/-- The same against the node update of four whole arrays: when row `p` of the block of node states is row `i 0` of the
    array `h`, the block of aggregated messages at `(p, q)` is `agg` at `i`, the weight and bias blocks are the whole arrays,
    and `i`'s channel is `q`, the stored value is the update at `i`. -/
theorem pay_eq_upd (x0 x1 : Vec Ideal S5000x128 .f32) (x2 : Vec Ideal S128x128 .f32) (x3 : Vec Ideal S1x128 .f32)
    (h agg : Cert.Spec.SN.Idx → EReal) (w : Cert.Spec.SW.Idx → EReal) (b : Cert.Spec.SB.Idx → EReal)
    (p : Fin 5000) (q : Fin 128) (i : Cert.Spec.SN.Idx) (hq : (i 1).val = q.val)
    (h0 : ∀ k : Fin 128, x0 (ix2 p k) = h (ix2 (i 0) k)) (h1 : x1 (ix2 p q) = agg i) (h2 : x2 = w) (h3 : x3 = b) :
    k3_pay1 (F := Ideal) x0 x2 x3 x1 (ix2 p q) = Cert.Spec.upd h agg w b i := by
  rw [pay_apply, h1, h2, h3]
  obtain ⟨n, o, rfl⟩ : ∃ (n : Fin 100000) (o : Fin 128), i = ix2 n o := ⟨i 0, i 1, eq_ix2 i⟩
  obtain rfl : o = q := Fin.ext hq
  rw [Cert.Spec.upd_apply]
  unfold Cert.Spec.updAt
  exact congrArg Ideal.tanh (congrArg (· + agg (ix2 n o)) (congrArg (· + b (ix2 (0 : Fin 1) o)) (Finset.sum_congr rfl fun k _ => by rw [h0 k])))

/-! ## From blocks to the array

The grid has 20 points. At point `t` the node states, the aggregated messages and the output are at rows
`5000·t … 5000·t + 4999` of their arrays; the weight and the bias row are whole at every point. So what point `t` writes
back is rows `5000·t …` of the node update of the four input arrays, and the 20 blocks tile the 100000 rows. -/

theorem hz : (![0, 0] : Fin 2 → Nat) = fun _ => 0 := funext fun a => by fin_cases a <;> rfl

/-- The body's one store covers the whole output block and its four loads read whole blocks: what it leaves in the output
    window's buffer is the stored value of the four input blocks. -/
theorem stored_eq (x0 x1 : Vec Ideal S5000x128 .f32) (x2 : Vec Ideal S128x128 .f32) (x3 : Vec Ideal S1x128 .f32) :
    out3_4 (F := Ideal) x0 x1 x2 x3 = k3_pay1 x0 x2 x3 x1 := by
  unfold out3_4
  rw [View.canon_unit_zero hz]
  simp only [View.ld_unit_zero (S := S5000x128) hz, View.ld_unit_zero (S := S128x128) hz, View.ld_unit_zero (S := S1x128) hz]

/-- The printed index maps, decided over the grid: the row-blocked windows are at block `(t, 0)`, the weight and the bias
    at block `(0, 0)`. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The channel of an element of point `t`'s output block is its channel inside the block. -/
theorem out_channel (t : Fin cfg3.N) (p : Fin 5000) (q : Fin 128) :
    ((((cfg3.win 4).blk t).view.emb (ix2 p q) : S100000x128.Idx) 1).val = q.val := by
  obtain ⟨e00, e01, e10, e11, e20, e21, e30, e31, e40, e41⟩ := idx_facts t
  show win3_4.index t (1 : Fin 2) * 128 + 1 * q.val = q.val
  omega

/-- Row `p` of point `t`'s block of node states is the array's row of the output block's row `p`. -/
theorem read_states (c : Dev nD) (t : Fin cfg3.N) (p : Fin 5000) (q k : Fin 128) :
    (iblk3 V c 0 t : Vec Ideal S5000x128 .f32) (ix2 p k)
      = (V c (Pipeline.arrRef spec3 0) : S100000x128.Idx → EReal)
          (ix2 ((((cfg3.win 4).blk t).view.emb (ix2 p q) : S100000x128.Idx) 0) k) := by
  obtain ⟨e00, e01, e10, e11, e20, e21, e30, e31, e40, e41⟩ := idx_facts t
  show V c (Pipeline.arrRef spec3 0) (((cfg3.win 0).blk t).view.emb (ix2 p k)) = V c (Pipeline.arrRef spec3 0) _
  refine congrArg (V c (Pipeline.arrRef spec3 0)) (funext fun a => Fin.ext ?_)
  match a with
  | ⟨0, _⟩ => show win3_0.index t (0 : Fin 2) * 5000 + 1 * p.val = win3_4.index t (0 : Fin 2) * 5000 + 1 * p.val; omega
  | ⟨1, _⟩ => show win3_0.index t (1 : Fin 2) * 128 + 1 * k.val = k.val; omega

/-- Point `t`'s block of aggregated messages sits in its array where the output block sits in the output array. -/
theorem read_agg (c : Dev nD) (t : Fin cfg3.N) (p : Fin 5000) (q : Fin 128) :
    (iblk3 V c 1 t : Vec Ideal S5000x128 .f32) (ix2 p q)
      = (V c (Pipeline.arrRef spec3 1) : S100000x128.Idx → EReal) (((cfg3.win 4).blk t).view.emb (ix2 p q)) := by
  obtain ⟨e00, e01, e10, e11, e20, e21, e30, e31, e40, e41⟩ := idx_facts t
  show V c (Pipeline.arrRef spec3 1) (((cfg3.win 1).blk t).view.emb (ix2 p q)) = V c (Pipeline.arrRef spec3 1) (((cfg3.win 4).blk t).view.emb (ix2 p q))
  refine congrArg (V c (Pipeline.arrRef spec3 1)) (funext fun a => Fin.ext ?_)
  match a with
  | ⟨0, _⟩ => show win3_1.index t (0 : Fin 2) * 5000 + 1 * p.val = win3_4.index t (0 : Fin 2) * 5000 + 1 * p.val; omega
  | ⟨1, _⟩ => show win3_1.index t (1 : Fin 2) * 128 + 1 * q.val = win3_4.index t (1 : Fin 2) * 128 + 1 * q.val; omega

/-- The weight's one block is the whole weight, at every point. -/
theorem read_weight (c : Dev nD) (t : Fin cfg3.N) :
    (iblk3 V c 2 t : Vec Ideal S128x128 .f32) = V c (Pipeline.arrRef spec3 2) := by
  obtain ⟨e00, e01, e10, e11, e20, e21, e30, e31, e40, e41⟩ := idx_facts t
  funext y
  show V c (Pipeline.arrRef spec3 2) (((cfg3.win 2).blk t).view.emb y) = V c (Pipeline.arrRef spec3 2) y
  refine congrArg (V c (Pipeline.arrRef spec3 2)) (funext fun a => Fin.ext ?_)
  match a with
  | ⟨0, _⟩ => show win3_2.index t (0 : Fin 2) * 128 + 1 * (y 0).val = (y 0).val; omega
  | ⟨1, _⟩ => show win3_2.index t (1 : Fin 2) * 128 + 1 * (y 1).val = (y 1).val; omega

/-- The bias row's one block is the whole row, at every point. -/
theorem read_bias (c : Dev nD) (t : Fin cfg3.N) :
    (iblk3 V c 3 t : Vec Ideal S1x128 .f32) = V c (Pipeline.arrRef spec3 3) := by
  obtain ⟨e00, e01, e10, e11, e20, e21, e30, e31, e40, e41⟩ := idx_facts t
  funext y
  show V c (Pipeline.arrRef spec3 3) (((cfg3.win 3).blk t).view.emb y) = V c (Pipeline.arrRef spec3 3) y
  refine congrArg (V c (Pipeline.arrRef spec3 3)) (funext fun a => Fin.ext ?_)
  match a with
  | ⟨0, _⟩ => show win3_3.index t (0 : Fin 2) * 1 + 1 * (y 0).val = (y 0).val; omega
  | ⟨1, _⟩ => show win3_3.index t (1 : Fin 2) * 128 + 1 * (y 1).val = (y 1).val; omega

/-- WHAT POINT `t` WRITES BACK is block `t` of the node update of the four arrays as the region finds them. -/
theorem flushed_eq (c : Dev nD) (t : Fin cfg3.N) :
    (dat3 (F := Ideal) V c).flushed 4 t = ((cfg3.win 4).blk t).view.read (Elt Ideal)
      (Cert.Spec.upd (V c (Pipeline.arrRef spec3 0)) (V c (Pipeline.arrRef spec3 1)) (V c (Pipeline.arrRef spec3 2))
        (V c (Pipeline.arrRef spec3 3))) := by
  show (cfg3.win 4).cut (grid3.coords t) ((dat3 V c).after 4 t) = _
  rw [after3_4, stored_eq (iblk3 V c 0 t) (iblk3 V c 1 t) (iblk3 V c 2 t) (iblk3 V c 3 t)]
  funext j
  obtain ⟨p, q, rfl⟩ : ∃ (p : Fin 5000) (q : Fin 128), j = ix2 p q := ⟨j 0, j 1, eq_ix2 j⟩
  exact pay_eq_upd (iblk3 V c 0 t) (iblk3 V c 1 t) (iblk3 V c 2 t) (iblk3 V c 3 t) _ _ _ _ p q _ (out_channel t p q)
    (fun k => read_states V c t p q k) (read_agg V c t p q) (read_weight V c t) (read_bias V c t)

/-- An index of the output array is in point `t`'s block iff each coordinate is in the block's range on its axis. -/
theorem mem_blk (t : Fin cfg3.N) (i : S100000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v18).slice (win3_4.rect t)).set ↔ _
  rw [View.set_slice_whole, Rect.mem_set_unit]
  exact Iff.rfl

/-- Every index of the output array is in the block of the point its row falls to: row `r` in point `r / 5000`'s. -/
theorem cover (i : S100000x128.Idx) :
    ∃ t : Fin cfg3.N, (cfg3.win 4).flush t = true ∧ i ∈ ((cfg3.win 4).blk t).view.set := by
  have hi0 : (i 0).val < 100000 := (i 0).isLt
  have hi1 : (i 1).val < 128 := (i 1).isLt
  have hN : grid3.N = 20 := N_3
  obtain ⟨t, ht⟩ : ∃ t : Fin cfg3.N, t.val = (i 0).val / 5000 := ⟨⟨(i 0).val / 5000, by show _ < grid3.N; rw [hN]; omega⟩, rfl⟩
  obtain ⟨e00, e01, e10, e11, e20, e21, e30, e31, e40, e41⟩ := idx_facts t
  refine ⟨t, flush3_4 t, ?_⟩
  rw [mem_blk]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 128 ≤ (i 1).val ∧ (i 1).val < win3_4.index t (1 : Fin 2) * 128 + 128; omega

/-- THE OUTPUT ARRAY after the region's run is the node update of the region's input arrays as it found them. -/
theorem value (c : Dev nD) :
    (dat3 (F := Ideal) V c).arrAt 4 cfg3.N
      = Cert.Spec.upd (V c (Pipeline.arrRef spec3 0)) (V c (Pipeline.arrRef spec3 1)) (V c (Pipeline.arrRef spec3 2))
          (V c (Pipeline.arrRef spec3 3)) :=
  (dat3 (F := Ideal) V c).arrAt_eq_of_cover 4 _ (fun t _ => flushed_eq V c t) cover

end Cert.KernelIdeal.UpdRegion3

end
-- ==== Proof.KernelChain.lean ====
/-
  The contents of the result buffer when the idealized kernel program returns, read back through the program: four
  host stretches and four kernel regions. The program runs two rounds of message passing. In each round the source
  node's state is gathered for every edge (a take that fills out-of-range rows, none when the indices are in range), the per-edge messages are computed by a kernel region
  (`Cert.Spec.msg`), summed into their destination nodes (a scatter-add into zeros), and the node states are updated by a
  kernel region (`Cert.Spec.upd`). The weights are prepared once, before the first round: the two halves of the message
  weight and the self weight transposed, the two biases reshaped to rows.

  A buffer that no stretch and no region writes holds at every boundary what it held at the first one (`Kept`).

  The take is read one operation at a time: its result is the select of its row mask, its gathered rows and its fill;
  the row mask is each edge's in-range bit along the row; with every source index in `[-100000, 100000)` every bit is 1,
  so the select is the gathered rows.
-/
import proofs.«421721_j14199161880576_1_alg».proof.Proof.Gen.KernelIdeal.Frame
import proofs.«421721_j14199161880576_1_alg».proof.Proof.Spec
import proofs.«421721_j14199161880576_1_alg».proof.Proof.TakeBridge
import proofs.«421721_j14199161880576_1_alg».proof.Proof.MsgRegion0
import proofs.«421721_j14199161880576_1_alg».proof.Proof.MsgRegion2
import proofs.«421721_j14199161880576_1_alg».proof.Proof.UpdRegion1
import proofs.«421721_j14199161880576_1_alg».proof.Proof.UpdRegion3
import Idealize.ShloMosaic.PureOps.Ideal
import Idealize.ShloMosaic.Lib.ValueIdx
import Idealize.ShloMosaic.Lib.ValueLayout
import Idealize.ShloMosaic.Lib.Pipeline.Value

set_option maxRecDepth 16384

noncomputable section

namespace Cert.KernelIdeal.Chain

open Idealize.ShloMosaic Idealize.ShloMosaic.TcCoe Idealize.SL.Sem Idealize.ShloMosaic.StableHlo Idealize.ShloMosaic.ValueIdx
open Cert.KernelIdeal Cert.KernelIdeal.Gen

/-! ## Reading a stretch one operation at a time -/

section Steps

variable {Val : EltTy → Type}

/-- A stretch ending in a three-operand operation leaves, at that operation's result, its function of what the
    operations before it leave at its operands. -/
theorem after_snoc_ternary (pre : List (HloOp τ sig Val)) (x a b y : Ref sig .tc)
    (f : x.ty.Contents Val → a.ty.Contents Val → b.ty.Contents Val → y.ty.Contents Val) (hx ha hb hy) (V : Valuation τ sig Val) :
    StableHlo.after (pre ++ [StableHlo.ternary x a b y f hx ha hb hy]) V (Proc.devRef .tc y)
      = f (StableHlo.after pre V (Proc.devRef .tc x)) (StableHlo.after pre V (Proc.devRef .tc a))
          (StableHlo.after pre V (Proc.devRef .tc b)) := by
  rw [StableHlo.after_append, StableHlo.after_cons, StableHlo.after_nil, StableHlo.ternary_result]

/-- The same for a one-operand operation. -/
theorem after_snoc_unary (pre : List (HloOp τ sig Val)) (x y : Ref sig .tc) (f : x.ty.Contents Val → y.ty.Contents Val)
    (hx hy) (V : Valuation τ sig Val) :
    StableHlo.after (pre ++ [StableHlo.unary x y f hx hy]) V (Proc.devRef .tc y) = f (StableHlo.after pre V (Proc.devRef .tc x)) := by
  rw [StableHlo.after_append, StableHlo.after_cons, StableHlo.after_nil, StableHlo.unary_result]

/-- Operations that do not write a buffer leave it as the operations before them did. -/
theorem after_append_keep (pre suf : List (HloOp τ sig Val)) (V : Valuation τ sig Val) (b : DevRef τ sig)
    (h : ∀ op ∈ suf, b ∉ op.writes) : StableHlo.after (pre ++ suf) V b = StableHlo.after pre V b := by
  rw [StableHlo.after_append]
  exact StableHlo.after_of_forall_not_mem suf _ h

end Steps

variable (m : (ℓ : Loc nD τ sig) → Buf (Elt Ideal) ℓ) (ρ : Dev nD → PrngReg) (c : Dev nD)

/-! ## The launch contents and the prepared weights -/

/-- The node states at launch. -/
abbrev a0 : FVec Ideal S100000x128 .f32 := (m ((c.tc : Thread nD τ).loc main_arg0))
/-- The edges' relation vectors. -/
abbrev a1 : FVec Ideal S1600000x128 .f32 := (m ((c.tc : Thread nD τ).loc main_arg1))
/-- The edges' confidences. -/
abbrev a2 : FVec Ideal S1600000x1 .f32 := (m ((c.tc : Thread nD τ).loc main_arg2))
/-- The message weight, `[128, 256]`. -/
abbrev a3 : FVec Ideal S128x256 .f32 := (m ((c.tc : Thread nD τ).loc main_arg3))
/-- The message bias. -/
abbrev a4 : FVec Ideal S128 .f32 := (m ((c.tc : Thread nD τ).loc main_arg4))
/-- The self weight. -/
abbrev a5 : FVec Ideal S128x128 .f32 := (m ((c.tc : Thread nD τ).loc main_arg5))
/-- The self bias. -/
abbrev a6 : FVec Ideal S128 .f32 := (m ((c.tc : Thread nD τ).loc main_arg6))
/-- The edges' source nodes. -/
abbrev a7 : IVec S1600000 32 := (m ((c.tc : Thread nD τ).loc main_arg7))
/-- The edges' destination nodes. -/
abbrev a8 : IVec S1600000 32 := (m ((c.tc : Thread nD τ).loc main_arg8))

/-- The source half of the message weight, transposed. -/
def wsT : FVec Ideal S128x128 .f32 :=
  transpose S128x128 [1, 0] (extractStridedSlice S128x128 ![0, 0] (a3 m c) slices_S128x256_S128x128_0_0) transposes_S128x128_S128x128_1_0
/-- The relation half of the message weight, transposed. -/
def wrT : FVec Ideal S128x128 .f32 :=
  transpose S128x128 [1, 0] (extractStridedSlice S128x128 ![0, 128] (a3 m c) slices_S128x256_S128x128_0_128) transposes_S128x128_S128x128_1_0
/-- The self weight, transposed. -/
def wselfT : FVec Ideal S128x128 .f32 := transpose S128x128 [1, 0] (a5 m c) transposes_S128x128_S128x128_1_0
/-- The message bias as a row. -/
def bmsg : FVec Ideal S1x128 .f32 := shapeCast S1x128 (a4 m c) shapeCasts_S128_S1x128
/-- The self bias as a row. -/
def bself : FVec Ideal S1x128 .f32 := shapeCast S1x128 (a6 m c) shapeCasts_S128_S1x128

theorem wsT_apply (k o : Fin 128) : wsT m c (ix2 k o) = a3 m c (ix2 o (⟨k.val, by omega⟩ : Fin 256)) := by
  unfold wsT
  rw [transpose_ix2_apply]
  exact extractStridedSlice_apply _ _ _ _ _ (fun a => match a with | ⟨0, _⟩ => by simp | ⟨1, _⟩ => by simp)

theorem wrT_apply (k o : Fin 128) : wrT m c (ix2 k o) = a3 m c (ix2 o (⟨k.val + 128, by omega⟩ : Fin 256)) := by
  unfold wrT
  rw [transpose_ix2_apply]
  exact extractStridedSlice_apply _ _ _ _ _ (fun a => match a with
    | ⟨0, _⟩ => by simp
    | ⟨1, _⟩ => by show k.val + 128 = 128 + k.val; omega)

theorem wselfT_apply (k o : Fin 128) : wselfT m c (ix2 k o) = a5 m c (ix2 o k) := by
  unfold wselfT
  rw [transpose_ix2_apply]

theorem bmsg_apply (o : Fin 128) : bmsg m c (ix2 (0 : Fin 1) o) = a4 m c (ix1 o) := by
  unfold bmsg
  rw [shapeCast_a_1a_apply]

theorem bself_apply (o : Fin 128) : bself m c (ix2 (0 : Fin 1) o) = a6 m c (ix1 o) := by
  unfold bself
  rw [shapeCast_a_1a_apply]

/-! ## What no stretch and no region writes -/

/-- At the contents `W`, the arguments the rounds read and the prepared weights hold their first values. -/
structure Kept (W : Valuation τ sig (Elt Ideal)) : Prop where
  arg0 : W (Proc.devRef .tc main_arg0) = a0 m c
  arg1 : W (Proc.devRef .tc main_arg1) = a1 m c
  arg2 : W (Proc.devRef .tc main_arg2) = a2 m c
  arg7 : W (Proc.devRef .tc main_arg7) = a7 m c
  arg8 : W (Proc.devRef .tc main_arg8) = a8 m c
  v2 : W (Proc.devRef .tc main_v2) = wsT m c
  v3 : W (Proc.devRef .tc main_v3) = wrT m c
  v4 : W (Proc.devRef .tc main_v4) = wselfT m c
  v5 : W (Proc.devRef .tc main_v5) = bmsg m c
  v6 : W (Proc.devRef .tc main_v6) = bself m c

/-- Across a host stretch `ops` from contents `Wp`: the buffer is not among those the stretch writes, so it holds what
    it held in `Wp`, which `h` gives. -/
macro "kept_across " ops:ident " from " Wp:term " by " h:term : tactic =>
  `(tactic| (show StableHlo.after $ops $Wp _ = _; after_results; exact $h))

/-- Region 0's entry: after the preparation and the first take. -/
theorem kept2 : Kept m c (W2 m ρ c) where
  arg0 := by show StableHlo.after hostOps0_1 (W1 m ρ c) _ = _; after_results
  arg1 := by show StableHlo.after hostOps0_1 (W1 m ρ c) _ = _; after_results
  arg2 := by show StableHlo.after hostOps0_1 (W1 m ρ c) _ = _; after_results
  arg7 := by show StableHlo.after hostOps0_1 (W1 m ρ c) _ = _; after_results
  arg8 := by show StableHlo.after hostOps0_1 (W1 m ρ c) _ = _; after_results
  v2 := by show StableHlo.after hostOps0_1 (W1 m ρ c) _ = _; after_results; rfl
  v3 := by show StableHlo.after hostOps0_1 (W1 m ρ c) _ = _; after_results; rfl
  v4 := by show StableHlo.after hostOps0_1 (W1 m ρ c) _ = _; after_results; rfl
  v5 := by show StableHlo.after hostOps0_1 (W1 m ρ c) _ = _; after_results; rfl
  v6 := by show StableHlo.after hostOps0_1 (W1 m ρ c) _ = _; after_results; rfl

/-- Region 0's exit: its input windows' arrays are as entered, and the other buffers are not its. -/
theorem kept3 : Kept m c (W3 m ρ c) where
  arg0 := (W3_of_ne m ρ c main_arg0 (by decide)).trans (kept2 m ρ c).arg0
  arg1 := ((W3_arr m ρ c 1).trans (((dat0 (V2 m ρ) c).arrAt_in 1 rfl _).trans (A_eq0 (V2 m ρ) c 1))).trans (kept2 m ρ c).arg1
  arg2 := ((W3_arr m ρ c 2).trans (((dat0 (V2 m ρ) c).arrAt_in 2 rfl _).trans (A_eq0 (V2 m ρ) c 2))).trans (kept2 m ρ c).arg2
  arg7 := (W3_of_ne m ρ c main_arg7 (by decide)).trans (kept2 m ρ c).arg7
  arg8 := (W3_of_ne m ρ c main_arg8 (by decide)).trans (kept2 m ρ c).arg8
  v2 := ((W3_arr m ρ c 3).trans (((dat0 (V2 m ρ) c).arrAt_in 3 rfl _).trans (A_eq0 (V2 m ρ) c 3))).trans (kept2 m ρ c).v2
  v3 := ((W3_arr m ρ c 4).trans (((dat0 (V2 m ρ) c).arrAt_in 4 rfl _).trans (A_eq0 (V2 m ρ) c 4))).trans (kept2 m ρ c).v3
  v4 := (W3_of_ne m ρ c main_v4 (by decide)).trans (kept2 m ρ c).v4
  v5 := ((W3_arr m ρ c 5).trans (((dat0 (V2 m ρ) c).arrAt_in 5 rfl _).trans (A_eq0 (V2 m ρ) c 5))).trans (kept2 m ρ c).v5
  v6 := (W3_of_ne m ρ c main_v6 (by decide)).trans (kept2 m ρ c).v6

/-- Region 1's entry: after the first scatter-add. -/
theorem kept4 : Kept m c (W4 m ρ c) where
  arg0 := by kept_across hostOps1 from (W3 m ρ c) by (kept3 m ρ c).arg0
  arg1 := by kept_across hostOps1 from (W3 m ρ c) by (kept3 m ρ c).arg1
  arg2 := by kept_across hostOps1 from (W3 m ρ c) by (kept3 m ρ c).arg2
  arg7 := by kept_across hostOps1 from (W3 m ρ c) by (kept3 m ρ c).arg7
  arg8 := by kept_across hostOps1 from (W3 m ρ c) by (kept3 m ρ c).arg8
  v2 := by kept_across hostOps1 from (W3 m ρ c) by (kept3 m ρ c).v2
  v3 := by kept_across hostOps1 from (W3 m ρ c) by (kept3 m ρ c).v3
  v4 := by kept_across hostOps1 from (W3 m ρ c) by (kept3 m ρ c).v4
  v5 := by kept_across hostOps1 from (W3 m ρ c) by (kept3 m ρ c).v5
  v6 := by kept_across hostOps1 from (W3 m ρ c) by (kept3 m ρ c).v6

/-- Region 1's exit. -/
theorem kept5 : Kept m c (W5 m ρ c) where
  arg0 := ((W5_arr m ρ c 0).trans (((dat1 (V4 m ρ) c).arrAt_in 0 rfl _).trans (A_eq1 (V4 m ρ) c 0))).trans (kept4 m ρ c).arg0
  arg1 := (W5_of_ne m ρ c main_arg1 (by decide)).trans (kept4 m ρ c).arg1
  arg2 := (W5_of_ne m ρ c main_arg2 (by decide)).trans (kept4 m ρ c).arg2
  arg7 := (W5_of_ne m ρ c main_arg7 (by decide)).trans (kept4 m ρ c).arg7
  arg8 := (W5_of_ne m ρ c main_arg8 (by decide)).trans (kept4 m ρ c).arg8
  v2 := (W5_of_ne m ρ c main_v2 (by decide)).trans (kept4 m ρ c).v2
  v3 := (W5_of_ne m ρ c main_v3 (by decide)).trans (kept4 m ρ c).v3
  v4 := ((W5_arr m ρ c 2).trans (((dat1 (V4 m ρ) c).arrAt_in 2 rfl _).trans (A_eq1 (V4 m ρ) c 2))).trans (kept4 m ρ c).v4
  v5 := (W5_of_ne m ρ c main_v5 (by decide)).trans (kept4 m ρ c).v5
  v6 := ((W5_arr m ρ c 3).trans (((dat1 (V4 m ρ) c).arrAt_in 3 rfl _).trans (A_eq1 (V4 m ρ) c 3))).trans (kept4 m ρ c).v6

/-- Region 2's entry: after the second take. -/
theorem kept6 : Kept m c (W6 m ρ c) where
  arg0 := by kept_across hostOps2 from (W5 m ρ c) by (kept5 m ρ c).arg0
  arg1 := by kept_across hostOps2 from (W5 m ρ c) by (kept5 m ρ c).arg1
  arg2 := by kept_across hostOps2 from (W5 m ρ c) by (kept5 m ρ c).arg2
  arg7 := by kept_across hostOps2 from (W5 m ρ c) by (kept5 m ρ c).arg7
  arg8 := by kept_across hostOps2 from (W5 m ρ c) by (kept5 m ρ c).arg8
  v2 := by kept_across hostOps2 from (W5 m ρ c) by (kept5 m ρ c).v2
  v3 := by kept_across hostOps2 from (W5 m ρ c) by (kept5 m ρ c).v3
  v4 := by kept_across hostOps2 from (W5 m ρ c) by (kept5 m ρ c).v4
  v5 := by kept_across hostOps2 from (W5 m ρ c) by (kept5 m ρ c).v5
  v6 := by kept_across hostOps2 from (W5 m ρ c) by (kept5 m ρ c).v6

/-- Region 2's exit. -/
theorem kept7 : Kept m c (W7 m ρ c) where
  arg0 := (W7_of_ne m ρ c main_arg0 (by decide)).trans (kept6 m ρ c).arg0
  arg1 := ((W7_arr m ρ c 1).trans (((dat2 (V6 m ρ) c).arrAt_in 1 rfl _).trans (A_eq2 (V6 m ρ) c 1))).trans (kept6 m ρ c).arg1
  arg2 := ((W7_arr m ρ c 2).trans (((dat2 (V6 m ρ) c).arrAt_in 2 rfl _).trans (A_eq2 (V6 m ρ) c 2))).trans (kept6 m ρ c).arg2
  arg7 := (W7_of_ne m ρ c main_arg7 (by decide)).trans (kept6 m ρ c).arg7
  arg8 := (W7_of_ne m ρ c main_arg8 (by decide)).trans (kept6 m ρ c).arg8
  v2 := ((W7_arr m ρ c 3).trans (((dat2 (V6 m ρ) c).arrAt_in 3 rfl _).trans (A_eq2 (V6 m ρ) c 3))).trans (kept6 m ρ c).v2
  v3 := ((W7_arr m ρ c 4).trans (((dat2 (V6 m ρ) c).arrAt_in 4 rfl _).trans (A_eq2 (V6 m ρ) c 4))).trans (kept6 m ρ c).v3
  v4 := (W7_of_ne m ρ c main_v4 (by decide)).trans (kept6 m ρ c).v4
  v5 := ((W7_arr m ρ c 5).trans (((dat2 (V6 m ρ) c).arrAt_in 5 rfl _).trans (A_eq2 (V6 m ρ) c 5))).trans (kept6 m ρ c).v5
  v6 := (W7_of_ne m ρ c main_v6 (by decide)).trans (kept6 m ρ c).v6

/-- Region 3's entry: after the second scatter-add. -/
theorem kept8 : Kept m c (W8 m ρ c) where
  arg0 := by kept_across hostOps3 from (W7 m ρ c) by (kept7 m ρ c).arg0
  arg1 := by kept_across hostOps3 from (W7 m ρ c) by (kept7 m ρ c).arg1
  arg2 := by kept_across hostOps3 from (W7 m ρ c) by (kept7 m ρ c).arg2
  arg7 := by kept_across hostOps3 from (W7 m ρ c) by (kept7 m ρ c).arg7
  arg8 := by kept_across hostOps3 from (W7 m ρ c) by (kept7 m ρ c).arg8
  v2 := by kept_across hostOps3 from (W7 m ρ c) by (kept7 m ρ c).v2
  v3 := by kept_across hostOps3 from (W7 m ρ c) by (kept7 m ρ c).v3
  v4 := by kept_across hostOps3 from (W7 m ρ c) by (kept7 m ρ c).v4
  v5 := by kept_across hostOps3 from (W7 m ρ c) by (kept7 m ρ c).v5
  v6 := by kept_across hostOps3 from (W7 m ρ c) by (kept7 m ρ c).v6

/-! ## The two rounds -/

/-- The sum of the per-edge messages `msgs` into their destination nodes. -/
def aggOf (msgs : FVec Ideal S1600000x128 .f32) : FVec Ideal S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 (a8 m c)) msgs

/-- One round from node states `h`. -/
def round (h : FVec Ideal S100000x128 .f32) : FVec Ideal S100000x128 .f32 :=
  Cert.Spec.upd h
    (aggOf m c (Cert.Spec.msg (Host.gather gather_S100000x128_S1600000x1_S1600000x128_1_0_n_n_0_1_1128 h (Take.normIdx (a7 m c))) (a1 m c) (a2 m c) (wsT m c) (wrT m c) (bmsg m c)))
    (wselfT m c) (bself m c)

/-- The bits "the normalised index lies in [0, 99999]", one per edge. -/
def okBits (src : IVec S1600000 32) : IVec S1600000 1 :=
  Host.reduce IntOp.andi
    (andi (cmpi .sge (Take.normIdx src) (broadcastInDim S1600000x1 ![] bcast_S_S1600000x1 (constantI S_ 32 0#32)))
      (cmpi .sle (Take.normIdx src) (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- A select on a bit that is 1 is its first branch. -/
theorem select_of_one {α : Type} (b : BitVec 1) (x y : α) (hb : b = 1#1) : Scalar.select b x y = x := by
  subst hb; exact select_one _ _

/-! ### The first take -/

/-- The take's last operation: the select between the gathered rows and the fill. -/
abbrev selOp0 : HloOp τ sig (Elt Ideal) :=
  StableHlo.TRef.ternary (.of main_call0_v14 : StableHlo.TRef sig ⟨S1600000x128, .i1⟩) (.of main_call0_v13 : StableHlo.TRef sig ⟨S1600000x128, .f32⟩)
    (.of main_call0_v15 : StableHlo.TRef sig ⟨S1600000x128, .f32⟩) (.of main_v7 : StableHlo.TRef sig ⟨S1600000x128, .f32⟩) select

/-- The operation that spreads each edge's in-range bit along its row. -/
abbrev maskOp0 : HloOp τ sig (Elt Ideal) :=
  StableHlo.TRef.unary (.of main_call0_v12 : StableHlo.TRef sig ⟨S1600000, .i1⟩) (.of main_call0_v14 : StableHlo.TRef sig ⟨S1600000x128, .i1⟩)
    (broadcastInDim S1600000x128 ![0] bcast_S1600000_S1600000x128_0)

theorem split0_last : (hostOps0_1 : List (HloOp τ sig (Elt Ideal))) = List.take 22 hostOps0_1 ++ [selOp0] := rfl
theorem split0_mask : (hostOps0_1 : List (HloOp τ sig (Elt Ideal)))
    = (List.take 19 hostOps0_1 ++ [maskOp0]) ++ List.drop 20 hostOps0_1 := rfl
theorem split0_pre : (hostOps0_1 : List (HloOp τ sig (Elt Ideal))) = List.take 19 hostOps0_1 ++ List.drop 19 hostOps0_1 :=
  (List.take_append_drop 19 _).symm

/-- The take's result is the select of three of its own buffers: the row mask, the gathered rows, the fill. -/
theorem sel0 : (W2 m ρ c (Proc.devRef .tc main_v7) : FVec Ideal S1600000x128 .f32)
    = select (W2 m ρ c (Proc.devRef .tc main_call0_v14) : IVec S1600000x128 1)
        (W2 m ρ c (Proc.devRef .tc main_call0_v13) : FVec Ideal S1600000x128 .f32)
        (W2 m ρ c (Proc.devRef .tc main_call0_v15) : FVec Ideal S1600000x128 .f32) := by
  have keep : ∀ b : DevRef τ sig, (∀ op ∈ [selOp0], b ∉ op.writes) →
      StableHlo.after hostOps0_1 (W1 m ρ c) b = StableHlo.after (List.take 22 hostOps0_1) (W1 m ρ c) b := by
    intro b hb
    conv_lhs => rw [split0_last]
    exact after_append_keep _ _ _ _ hb
  show StableHlo.after hostOps0_1 (W1 m ρ c) (Proc.devRef .tc main_v7)
    = select (StableHlo.after hostOps0_1 (W1 m ρ c) (Proc.devRef .tc main_call0_v14) : IVec S1600000x128 1)
        (StableHlo.after hostOps0_1 (W1 m ρ c) (Proc.devRef .tc main_call0_v13) : FVec Ideal S1600000x128 .f32)
        (StableHlo.after hostOps0_1 (W1 m ρ c) (Proc.devRef .tc main_call0_v15) : FVec Ideal S1600000x128 .f32)
  rw [keep (Proc.devRef .tc main_call0_v14) (by
      simp only [hostOps0_1, selOp0, List.take_succ_cons, List.take_zero, List.drop_succ_cons, List.drop_zero, List.mem_cons, List.mem_nil_iff, List.mem_singleton,
        or_false, forall_eq_or_imp, forall_eq, StableHlo.nullary_writes, StableHlo.unary_writes,
        StableHlo.binary_writes, StableHlo.ternary_writes, Finset.mem_singleton]
      repeat' apply And.intro
      all_goals exact StableHlo.devRef_ne_of_ne (by decide)),
    keep (Proc.devRef .tc main_call0_v13) (by
      simp only [hostOps0_1, selOp0, List.take_succ_cons, List.take_zero, List.drop_succ_cons, List.drop_zero, List.mem_cons, List.mem_nil_iff, List.mem_singleton,
        or_false, forall_eq_or_imp, forall_eq, StableHlo.nullary_writes, StableHlo.unary_writes,
        StableHlo.binary_writes, StableHlo.ternary_writes, Finset.mem_singleton]
      repeat' apply And.intro
      all_goals exact StableHlo.devRef_ne_of_ne (by decide)),
    keep (Proc.devRef .tc main_call0_v15) (by
      simp only [hostOps0_1, selOp0, List.take_succ_cons, List.take_zero, List.drop_succ_cons, List.drop_zero, List.mem_cons, List.mem_nil_iff, List.mem_singleton,
        or_false, forall_eq_or_imp, forall_eq, StableHlo.nullary_writes, StableHlo.unary_writes,
        StableHlo.binary_writes, StableHlo.ternary_writes, Finset.mem_singleton]
      repeat' apply And.intro
      all_goals exact StableHlo.devRef_ne_of_ne (by decide))]
  conv_lhs => rw [split0_last]
  refine (after_snoc_ternary _ _ _ _ _ _ _ _ _ _ _).trans ?_
  generalize StableHlo.after (List.take 22 hostOps0_1) (W1 m ρ c) = U
  rfl

/-- The row mask is each edge's in-range bit along its row. -/
theorem mask0 : (W2 m ρ c (Proc.devRef .tc main_call0_v14) : IVec S1600000x128 1)
    = broadcastInDim S1600000x128 ![0] bcast_S1600000_S1600000x128_0
        (W2 m ρ c (Proc.devRef .tc main_call0_v12) : IVec S1600000 1) := by
  have e12 : StableHlo.after hostOps0_1 (W1 m ρ c) (Proc.devRef .tc main_call0_v12)
      = StableHlo.after (List.take 19 hostOps0_1) (W1 m ρ c) (Proc.devRef .tc main_call0_v12) := by
    conv_lhs => rw [split0_pre]
    exact after_append_keep _ _ _ _ (by
      simp only [hostOps0_1, List.take_succ_cons, List.take_zero, List.drop_succ_cons, List.drop_zero, List.mem_cons, List.mem_nil_iff, List.mem_singleton,
        or_false, forall_eq_or_imp, forall_eq, StableHlo.nullary_writes, StableHlo.unary_writes,
        StableHlo.binary_writes, StableHlo.ternary_writes, Finset.mem_singleton]
      repeat' apply And.intro
      all_goals exact StableHlo.devRef_ne_of_ne (by decide))
  have e14 : StableHlo.after hostOps0_1 (W1 m ρ c) (Proc.devRef .tc main_call0_v14)
      = StableHlo.after (List.take 19 hostOps0_1 ++ [maskOp0]) (W1 m ρ c) (Proc.devRef .tc main_call0_v14) := by
    conv_lhs => rw [split0_mask]
    exact after_append_keep _ _ _ _ (by
      simp only [hostOps0_1, List.take_succ_cons, List.take_zero, List.drop_succ_cons, List.drop_zero, List.mem_cons, List.mem_nil_iff, List.mem_singleton,
        or_false, forall_eq_or_imp, forall_eq, StableHlo.nullary_writes, StableHlo.unary_writes,
        StableHlo.binary_writes, StableHlo.ternary_writes, Finset.mem_singleton]
      repeat' apply And.intro
      all_goals exact StableHlo.devRef_ne_of_ne (by decide))
  show StableHlo.after hostOps0_1 (W1 m ρ c) (Proc.devRef .tc main_call0_v14)
    = broadcastInDim S1600000x128 ![0] bcast_S1600000_S1600000x128_0
        (StableHlo.after hostOps0_1 (W1 m ρ c) (Proc.devRef .tc main_call0_v12) : IVec S1600000 1)
  rw [e14, e12]
  refine (after_snoc_unary _ _ _ _ _ _ _).trans ?_
  generalize StableHlo.after (List.take 19 hostOps0_1) (W1 m ρ c) = U
  rfl

set_option maxHeartbeats 1000000 in
/-- Each edge's in-range bit, as the take computes it from the source indices. -/
theorem ok0 : (W2 m ρ c (Proc.devRef .tc main_call0_v12) : IVec S1600000 1) = okBits (a7 m c) := by
  show StableHlo.after hostOps0_1 (W1 m ρ c) (Proc.devRef .tc main_call0_v12) = _
  after_results_simp
  simp only [TRef.toBuf, TRef.ofBuf, cast_eq]
  dsimp only [Elt]
  rfl

set_option maxHeartbeats 1000000 in
/-- The gathered rows, before any is replaced. -/
theorem rows0 : (W2 m ρ c (Proc.devRef .tc main_call0_v13) : FVec Ideal S1600000x128 .f32)
    = Host.gather gather_S100000x128_S1600000x1_S1600000x128_1_0_n_n_0_1_1128 (a0 m c) (Take.normIdx (a7 m c)) := by
  show StableHlo.after hostOps0_1 (W1 m ρ c) (Proc.devRef .tc main_call0_v13) = _
  after_results_simp
  simp only [TRef.toBuf, TRef.ofBuf, cast_eq]
  rfl

/-- The first take: with every source index in range no row is replaced by the fill word. -/
theorem take0 (hr : Take.InRange (a7 m c)) : (W2 m ρ c (Proc.devRef .tc main_v7) : FVec Ideal S1600000x128 .f32)
    = Host.gather gather_S100000x128_S1600000x1_S1600000x128_1_0_n_n_0_1_1128 (a0 m c) (Take.normIdx (a7 m c)) := by
  rw [sel0 m ρ c, mask0 m ρ c, ok0 m ρ c, rows0 m ρ c]
  funext j
  rw [select_apply]
  refine select_of_one _ _ _ ?_
  simp only [broadcastInDim]
  unfold okBits
  apply Take.reduce_andi_of_all
  · intro i
    obtain ⟨e, he⟩ := Take.normIdx_apply (a7 m c) i
    show IntOp.andi (IntOp.cmpi .sge (Take.normIdx (a7 m c) i) 0#32) (IntOp.cmpi .sle (Take.normIdx (a7 m c) i) 99999#32) = 1#1
    rw [he]
    exact Take.wnorm_bits _ (hr e).1 (hr e).2
  · rfl

/-! ### The second take -/

/-- The take's last operation: the select between the gathered rows and the fill. -/
abbrev selOp1 : HloOp τ sig (Elt Ideal) :=
  StableHlo.TRef.ternary (.of main_call1_v14 : StableHlo.TRef sig ⟨S1600000x128, .i1⟩) (.of main_call1_v13 : StableHlo.TRef sig ⟨S1600000x128, .f32⟩)
    (.of main_call1_v15 : StableHlo.TRef sig ⟨S1600000x128, .f32⟩) (.of main_v13 : StableHlo.TRef sig ⟨S1600000x128, .f32⟩) select

/-- The operation that spreads each edge's in-range bit along its row. -/
abbrev maskOp1 : HloOp τ sig (Elt Ideal) :=
  StableHlo.TRef.unary (.of main_call1_v12 : StableHlo.TRef sig ⟨S1600000, .i1⟩) (.of main_call1_v14 : StableHlo.TRef sig ⟨S1600000x128, .i1⟩)
    (broadcastInDim S1600000x128 ![0] bcast_S1600000_S1600000x128_0)

theorem split1_last : (hostOps2 : List (HloOp τ sig (Elt Ideal))) = List.take 22 hostOps2 ++ [selOp1] := rfl
theorem split1_mask : (hostOps2 : List (HloOp τ sig (Elt Ideal)))
    = (List.take 19 hostOps2 ++ [maskOp1]) ++ List.drop 20 hostOps2 := rfl
theorem split1_pre : (hostOps2 : List (HloOp τ sig (Elt Ideal))) = List.take 19 hostOps2 ++ List.drop 19 hostOps2 :=
  (List.take_append_drop 19 _).symm

/-- The take's result is the select of three of its own buffers: the row mask, the gathered rows, the fill. -/
theorem sel1 : (W6 m ρ c (Proc.devRef .tc main_v13) : FVec Ideal S1600000x128 .f32)
    = select (W6 m ρ c (Proc.devRef .tc main_call1_v14) : IVec S1600000x128 1)
        (W6 m ρ c (Proc.devRef .tc main_call1_v13) : FVec Ideal S1600000x128 .f32)
        (W6 m ρ c (Proc.devRef .tc main_call1_v15) : FVec Ideal S1600000x128 .f32) := by
  have keep : ∀ b : DevRef τ sig, (∀ op ∈ [selOp1], b ∉ op.writes) →
      StableHlo.after hostOps2 (W5 m ρ c) b = StableHlo.after (List.take 22 hostOps2) (W5 m ρ c) b := by
    intro b hb
    conv_lhs => rw [split1_last]
    exact after_append_keep _ _ _ _ hb
  show StableHlo.after hostOps2 (W5 m ρ c) (Proc.devRef .tc main_v13)
    = select (StableHlo.after hostOps2 (W5 m ρ c) (Proc.devRef .tc main_call1_v14) : IVec S1600000x128 1)
        (StableHlo.after hostOps2 (W5 m ρ c) (Proc.devRef .tc main_call1_v13) : FVec Ideal S1600000x128 .f32)
        (StableHlo.after hostOps2 (W5 m ρ c) (Proc.devRef .tc main_call1_v15) : FVec Ideal S1600000x128 .f32)
  rw [keep (Proc.devRef .tc main_call1_v14) (by
      simp only [hostOps2, selOp1, List.take_succ_cons, List.take_zero, List.drop_succ_cons, List.drop_zero, List.mem_cons, List.mem_nil_iff, List.mem_singleton,
        or_false, forall_eq_or_imp, forall_eq, StableHlo.nullary_writes, StableHlo.unary_writes,
        StableHlo.binary_writes, StableHlo.ternary_writes, Finset.mem_singleton]
      repeat' apply And.intro
      all_goals exact StableHlo.devRef_ne_of_ne (by decide)),
    keep (Proc.devRef .tc main_call1_v13) (by
      simp only [hostOps2, selOp1, List.take_succ_cons, List.take_zero, List.drop_succ_cons, List.drop_zero, List.mem_cons, List.mem_nil_iff, List.mem_singleton,
        or_false, forall_eq_or_imp, forall_eq, StableHlo.nullary_writes, StableHlo.unary_writes,
        StableHlo.binary_writes, StableHlo.ternary_writes, Finset.mem_singleton]
      repeat' apply And.intro
      all_goals exact StableHlo.devRef_ne_of_ne (by decide)),
    keep (Proc.devRef .tc main_call1_v15) (by
      simp only [hostOps2, selOp1, List.take_succ_cons, List.take_zero, List.drop_succ_cons, List.drop_zero, List.mem_cons, List.mem_nil_iff, List.mem_singleton,
        or_false, forall_eq_or_imp, forall_eq, StableHlo.nullary_writes, StableHlo.unary_writes,
        StableHlo.binary_writes, StableHlo.ternary_writes, Finset.mem_singleton]
      repeat' apply And.intro
      all_goals exact StableHlo.devRef_ne_of_ne (by decide))]
  conv_lhs => rw [split1_last]
  refine (after_snoc_ternary _ _ _ _ _ _ _ _ _ _ _).trans ?_
  generalize StableHlo.after (List.take 22 hostOps2) (W5 m ρ c) = U
  rfl

/-- The row mask is each edge's in-range bit along its row. -/
theorem mask1 : (W6 m ρ c (Proc.devRef .tc main_call1_v14) : IVec S1600000x128 1)
    = broadcastInDim S1600000x128 ![0] bcast_S1600000_S1600000x128_0
        (W6 m ρ c (Proc.devRef .tc main_call1_v12) : IVec S1600000 1) := by
  have e12 : StableHlo.after hostOps2 (W5 m ρ c) (Proc.devRef .tc main_call1_v12)
      = StableHlo.after (List.take 19 hostOps2) (W5 m ρ c) (Proc.devRef .tc main_call1_v12) := by
    conv_lhs => rw [split1_pre]
    exact after_append_keep _ _ _ _ (by
      simp only [hostOps2, List.take_succ_cons, List.take_zero, List.drop_succ_cons, List.drop_zero, List.mem_cons, List.mem_nil_iff, List.mem_singleton,
        or_false, forall_eq_or_imp, forall_eq, StableHlo.nullary_writes, StableHlo.unary_writes,
        StableHlo.binary_writes, StableHlo.ternary_writes, Finset.mem_singleton]
      repeat' apply And.intro
      all_goals exact StableHlo.devRef_ne_of_ne (by decide))
  have e14 : StableHlo.after hostOps2 (W5 m ρ c) (Proc.devRef .tc main_call1_v14)
      = StableHlo.after (List.take 19 hostOps2 ++ [maskOp1]) (W5 m ρ c) (Proc.devRef .tc main_call1_v14) := by
    conv_lhs => rw [split1_mask]
    exact after_append_keep _ _ _ _ (by
      simp only [hostOps2, List.take_succ_cons, List.take_zero, List.drop_succ_cons, List.drop_zero, List.mem_cons, List.mem_nil_iff, List.mem_singleton,
        or_false, forall_eq_or_imp, forall_eq, StableHlo.nullary_writes, StableHlo.unary_writes,
        StableHlo.binary_writes, StableHlo.ternary_writes, Finset.mem_singleton]
      repeat' apply And.intro
      all_goals exact StableHlo.devRef_ne_of_ne (by decide))
  show StableHlo.after hostOps2 (W5 m ρ c) (Proc.devRef .tc main_call1_v14)
    = broadcastInDim S1600000x128 ![0] bcast_S1600000_S1600000x128_0
        (StableHlo.after hostOps2 (W5 m ρ c) (Proc.devRef .tc main_call1_v12) : IVec S1600000 1)
  rw [e14, e12]
  refine (after_snoc_unary _ _ _ _ _ _ _).trans ?_
  generalize StableHlo.after (List.take 19 hostOps2) (W5 m ρ c) = U
  rfl

set_option maxHeartbeats 1000000 in
/-- Each edge's in-range bit, as the take computes it from the source indices. -/
theorem ok1 : (W6 m ρ c (Proc.devRef .tc main_call1_v12) : IVec S1600000 1) = okBits (a7 m c) := by
  show StableHlo.after hostOps2 (W5 m ρ c) (Proc.devRef .tc main_call1_v12) = _
  after_results_simp
  simp only [TRef.toBuf, TRef.ofBuf, cast_eq]
  dsimp only [Elt]
  rw [(kept5 m ρ c).arg7]
  try rfl

set_option maxHeartbeats 1000000 in
/-- The gathered rows, before any is replaced. -/
theorem rows1 : (W6 m ρ c (Proc.devRef .tc main_call1_v13) : FVec Ideal S1600000x128 .f32)
    = Host.gather gather_S100000x128_S1600000x1_S1600000x128_1_0_n_n_0_1_1128 ((W5 m ρ c (Proc.devRef .tc main_v12) : FVec Ideal S100000x128 .f32)) (Take.normIdx (a7 m c)) := by
  show StableHlo.after hostOps2 (W5 m ρ c) (Proc.devRef .tc main_call1_v13) = _
  after_results_simp
  simp only [TRef.toBuf, TRef.ofBuf, cast_eq]
  rw [(kept5 m ρ c).arg7]
  try rfl

/-- The second take: with every source index in range no row is replaced by the fill word. -/
theorem take1 (hr : Take.InRange (a7 m c)) : (W6 m ρ c (Proc.devRef .tc main_v13) : FVec Ideal S1600000x128 .f32)
    = Host.gather gather_S100000x128_S1600000x1_S1600000x128_1_0_n_n_0_1_1128 ((W5 m ρ c (Proc.devRef .tc main_v12) : FVec Ideal S100000x128 .f32)) (Take.normIdx (a7 m c)) := by
  rw [sel1 m ρ c, mask1 m ρ c, ok1 m ρ c, rows1 m ρ c]
  funext j
  rw [select_apply]
  refine select_of_one _ _ _ ?_
  simp only [broadcastInDim]
  unfold okBits
  apply Take.reduce_andi_of_all
  · intro i
    obtain ⟨e, he⟩ := Take.normIdx_apply (a7 m c) i
    show IntOp.andi (IntOp.cmpi .sge (Take.normIdx (a7 m c) i) 0#32) (IntOp.cmpi .sle (Take.normIdx (a7 m c) i) 99999#32) = 1#1
    rw [he]
    exact Take.wnorm_bits _ (hr e).1 (hr e).2
  · rfl

/-- Region 0 leaves the first round's messages. -/
theorem msgs0 (hr : Take.InRange (a7 m c)) : (W3 m ρ c (Proc.devRef .tc main_v8) : FVec Ideal S1600000x128 .f32)
    = Cert.Spec.msg (Host.gather gather_S100000x128_S1600000x1_S1600000x128_1_0_n_n_0_1_1128 (a0 m c) (Take.normIdx (a7 m c))) (a1 m c) (a2 m c) (wsT m c) (wrT m c) (bmsg m c) := by
  refine (W3_arr m ρ c 6).trans ((MsgRegion0.value (V2 m ρ) c).trans ?_)
  have k := kept2 m ρ c
  have e0 : (V2 m ρ c (Pipeline.arrRef spec0 0) : FVec Ideal S1600000x128 .f32) = Host.gather gather_S100000x128_S1600000x1_S1600000x128_1_0_n_n_0_1_1128 (a0 m c) (Take.normIdx (a7 m c)) := take0 m ρ c hr
  have e1 : (V2 m ρ c (Pipeline.arrRef spec0 1) : FVec Ideal S1600000x128 .f32) = a1 m c := k.arg1
  have e2 : (V2 m ρ c (Pipeline.arrRef spec0 2) : FVec Ideal S1600000x1 .f32) = a2 m c := k.arg2
  have e3 : (V2 m ρ c (Pipeline.arrRef spec0 3) : FVec Ideal S128x128 .f32) = wsT m c := k.v2
  have e4 : (V2 m ρ c (Pipeline.arrRef spec0 4) : FVec Ideal S128x128 .f32) = wrT m c := k.v3
  have e5 : (V2 m ρ c (Pipeline.arrRef spec0 5) : FVec Ideal S1x128 .f32) = bmsg m c := k.v5
  rw [e0, e1, e2, e3, e4, e5]

/-- The first round's aggregate, as region 1 finds it. -/
theorem agg0 (hr : Take.InRange (a7 m c)) : (W4 m ρ c (Proc.devRef .tc main_v11) : FVec Ideal S100000x128 .f32)
    = aggOf m c (Cert.Spec.msg (Host.gather gather_S100000x128_S1600000x1_S1600000x128_1_0_n_n_0_1_1128 (a0 m c) (Take.normIdx (a7 m c))) (a1 m c) (a2 m c) (wsT m c) (wrT m c) (bmsg m c)) := by
  show StableHlo.after hostOps1 (W3 m ρ c) _ = _
  after_results
  rw [(kept3 m ρ c).arg8, msgs0 m ρ c hr]
  rfl

/-- Region 1 leaves the node states after one round. -/
theorem h1 (hr : Take.InRange (a7 m c)) : (W5 m ρ c (Proc.devRef .tc main_v12) : FVec Ideal S100000x128 .f32) = round m c (a0 m c) := by
  refine (W5_arr m ρ c 4).trans ((UpdRegion1.value (V4 m ρ) c).trans ?_)
  have k := kept4 m ρ c
  have e0 : (V4 m ρ c (Pipeline.arrRef spec1 0) : FVec Ideal S100000x128 .f32) = a0 m c := k.arg0
  have e1 : (V4 m ρ c (Pipeline.arrRef spec1 1) : FVec Ideal S100000x128 .f32) = _ := agg0 m ρ c hr
  have e2 : (V4 m ρ c (Pipeline.arrRef spec1 2) : FVec Ideal S128x128 .f32) = wselfT m c := k.v4
  have e3 : (V4 m ρ c (Pipeline.arrRef spec1 3) : FVec Ideal S1x128 .f32) = bself m c := k.v6
  rw [e0, e1, e2, e3]
  rfl

/-- The node states after one round reach region 3 untouched: the second take, region 2 and the second scatter-add
    write other buffers. -/
theorem h1_at8 (hr : Take.InRange (a7 m c)) : (W8 m ρ c (Proc.devRef .tc main_v12) : FVec Ideal S100000x128 .f32) = round m c (a0 m c) := by
  show StableHlo.after hostOps3 (W7 m ρ c) _ = _
  after_results
  refine (W7_of_ne m ρ c main_v12 (by decide)).trans ?_
  show StableHlo.after hostOps2 (W5 m ρ c) _ = _
  after_results
  exact h1 m ρ c hr

/-- Region 2 leaves the second round's messages. -/
theorem msgs1 (hr : Take.InRange (a7 m c)) : (W7 m ρ c (Proc.devRef .tc main_v14) : FVec Ideal S1600000x128 .f32)
    = Cert.Spec.msg (Host.gather gather_S100000x128_S1600000x1_S1600000x128_1_0_n_n_0_1_1128 (round m c (a0 m c)) (Take.normIdx (a7 m c))) (a1 m c) (a2 m c) (wsT m c) (wrT m c) (bmsg m c) := by
  refine (W7_arr m ρ c 6).trans ((MsgRegion2.value (V6 m ρ) c).trans ?_)
  have k := kept6 m ρ c
  have e0 : (V6 m ρ c (Pipeline.arrRef spec2 0) : FVec Ideal S1600000x128 .f32) = Host.gather gather_S100000x128_S1600000x1_S1600000x128_1_0_n_n_0_1_1128 (round m c (a0 m c)) (Take.normIdx (a7 m c)) :=
    (take1 m ρ c hr).trans (by rw [h1 m ρ c hr])
  have e1 : (V6 m ρ c (Pipeline.arrRef spec2 1) : FVec Ideal S1600000x128 .f32) = a1 m c := k.arg1
  have e2 : (V6 m ρ c (Pipeline.arrRef spec2 2) : FVec Ideal S1600000x1 .f32) = a2 m c := k.arg2
  have e3 : (V6 m ρ c (Pipeline.arrRef spec2 3) : FVec Ideal S128x128 .f32) = wsT m c := k.v2
  have e4 : (V6 m ρ c (Pipeline.arrRef spec2 4) : FVec Ideal S128x128 .f32) = wrT m c := k.v3
  have e5 : (V6 m ρ c (Pipeline.arrRef spec2 5) : FVec Ideal S1x128 .f32) = bmsg m c := k.v5
  rw [e0, e1, e2, e3, e4, e5]

/-- The second round's aggregate, as region 3 finds it. -/
theorem agg1 (hr : Take.InRange (a7 m c)) : (W8 m ρ c (Proc.devRef .tc main_v17) : FVec Ideal S100000x128 .f32)
    = aggOf m c (Cert.Spec.msg (Host.gather gather_S100000x128_S1600000x1_S1600000x128_1_0_n_n_0_1_1128 (round m c (a0 m c)) (Take.normIdx (a7 m c))) (a1 m c) (a2 m c) (wsT m c) (wrT m c) (bmsg m c)) := by
  show StableHlo.after hostOps3 (W7 m ρ c) _ = _
  after_results
  rw [(kept7 m ρ c).arg8, msgs1 m ρ c hr]
  rfl

/-- The result buffer when the program returns: two rounds from the launch node states. -/
theorem result_eq (hr : Take.InRange (a7 m c)) : (W9 m ρ c (Proc.devRef .tc main_v18) : FVec Ideal S100000x128 .f32) = round m c (round m c (a0 m c)) := by
  refine (W9_arr m ρ c 4).trans ((UpdRegion3.value (V8 m ρ) c).trans ?_)
  have k := kept8 m ρ c
  have e0 : (V8 m ρ c (Pipeline.arrRef spec3 0) : FVec Ideal S100000x128 .f32) = round m c (a0 m c) := h1_at8 m ρ c hr
  have e1 : (V8 m ρ c (Pipeline.arrRef spec3 1) : FVec Ideal S100000x128 .f32) = _ := agg1 m ρ c hr
  have e2 : (V8 m ρ c (Pipeline.arrRef spec3 2) : FVec Ideal S128x128 .f32) = wselfT m c := k.v4
  have e3 : (V8 m ρ c (Pipeline.arrRef spec3 3) : FVec Ideal S1x128 .f32) = bself m c := k.v6
  rw [e0, e1, e2, e3]
  rfl

end Cert.KernelIdeal.Chain

end
-- ==== Proof.RefBridge.lean ====
import proofs.«421721_j14199161880576_1_alg».proof.Proof.Gen.ReferenceIdeal.Read
import proofs.«421721_j14199161880576_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.RefBridge

open Idealize.ShloMosaic Idealize.ShloMosaic.TcCoe Idealize.SL.Sem Idealize.ShloMosaic.ValueIdx
open Cert.ReferenceIdeal Cert.ReferenceIdeal.Gen

/-- The reference's per-edge message array from the gathered source states `srch`. -/
def refMsg (srch rel : FVec Ideal S1600000x128 .f32) (conf : FVec Ideal S1600000x1 .f32) (W : FVec Ideal S128x256 .f32)
    (b : FVec Ideal S128 .f32) : FVec Ideal S1600000x128 .f32 :=
  mulf (Host.tanh (addf (Host.dotGeneral dot_S1600000x128_S128x128_S1600000x128_1_1_0_0_n_n none srch (extractStridedSlice S128x128 ![0, 0] W slices_S128x256_S128x128_0_0))
      (addf (Host.dotGeneral dot_S1600000x128_S128x128_S1600000x128_1_1_0_0_n_n none rel (extractStridedSlice S128x128 ![0, 128] W slices_S128x256_S128x128_0_128))
        (broadcastInDim S1600000x128 ![0, 1] bcast_S1x128_S1600000x128_0_1 (broadcastInDim S1x128 ![1] bcast_S128_S1x128_1 b)))))
    (broadcastInDim S1600000x128 ![0, 1] bcast_S1600000x1_S1600000x128_0_1 conf)

/-- The reference's node update from the aggregated messages `agg`. -/
def refUpd (h agg : FVec Ideal S100000x128 .f32) (Wself : FVec Ideal S128x128 .f32) (bself : FVec Ideal S128 .f32) :
    FVec Ideal S100000x128 .f32 :=
  Host.tanh (addf (addf (Host.dotGeneral dot_S100000x128_S128x128_S100000x128_1_1_0_0_n_n none h Wself)
      (broadcastInDim S100000x128 ![0, 1] bcast_S1x128_S100000x128_0_1 (broadcastInDim S1x128 ![1] bcast_S128_S1x128_1 bself))) agg)

/-! ## The reference's operations read at an index -/

/-- The host's hyperbolic tangent at an index is the extended reals' one at the element. -/
theorem hostTanh_apply {s : Shape} (x : FVec Ideal s .f32) (i : s.Idx) : Host.tanh x i = Ideal.tanh (x i) := rfl

/-- The edge-side contraction "eh,oh->eo" at `(e, o)` is `Σ_k x[e,k] · y[o,k]`. -/
theorem dotE_apply (x : FVec Ideal S1600000x128 .f32) (y : FVec Ideal S128x128 .f32) (e : Fin 1600000) (o : Fin 128) :
    Host.dotGeneral (F := Ideal) dot_S1600000x128_S128x128_S1600000x128_1_1_0_0_n_n none x y (ix2 e o) = ∑ k : Fin 128, x (ix2 e k) * y (ix2 o k) := by
  simp only [Host.dotGeneral]
  rw [Ideal.dotGeneral_apply, ← Equiv.sum_comp (contrEquiv1 dot_S1600000x128_S128x128_S1600000x128_1_1_0_0_n_n 128 rfl rfl).symm]
  refine Finset.sum_congr rfl fun k _ => ?_
  have hk := contrEquiv1_symm_val dot_S1600000x128_S128x128_S1600000x128_1_1_0_0_n_n 128 rfl rfl k
  have el : dot_S1600000x128_S128x128_S1600000x128_1_1_0_0_n_n.lhsIdx (ix2 e o) ((contrEquiv1 dot_S1600000x128_S128x128_S1600000x128_1_1_0_0_n_n 128 rfl rfl).symm k) = ix2 e k := funext fun a => Fin.ext (by
    match a with
    | ⟨0, _⟩ => exact Read.lhs_main_v2_0 _ _
    | ⟨1, _⟩ => exact (Read.lhs_main_v2_1 _ _).trans hk)
  have er : dot_S1600000x128_S128x128_S1600000x128_1_1_0_0_n_n.rhsIdx (ix2 e o) ((contrEquiv1 dot_S1600000x128_S128x128_S1600000x128_1_1_0_0_n_n 128 rfl rfl).symm k) = ix2 o k := funext fun a => Fin.ext (by
    match a with
    | ⟨0, _⟩ => exact Read.rhs_main_v2_0 _ _
    | ⟨1, _⟩ => exact (Read.rhs_main_v2_1 _ _).trans hk)
  rw [el, er]

/-- The node-side contraction "nh,oh->no" at `(n, o)` is `Σ_k x[n,k] · y[o,k]`. -/
theorem dotN_apply (x : FVec Ideal S100000x128 .f32) (y : FVec Ideal S128x128 .f32) (n : Fin 100000) (o : Fin 128) :
    Host.dotGeneral (F := Ideal) dot_S100000x128_S128x128_S100000x128_1_1_0_0_n_n none x y (ix2 n o) = ∑ k : Fin 128, x (ix2 n k) * y (ix2 o k) := by
  simp only [Host.dotGeneral]
  rw [Ideal.dotGeneral_apply, ← Equiv.sum_comp (contrEquiv1 dot_S100000x128_S128x128_S100000x128_1_1_0_0_n_n 128 rfl rfl).symm]
  refine Finset.sum_congr rfl fun k _ => ?_
  have hk := contrEquiv1_symm_val dot_S100000x128_S128x128_S100000x128_1_1_0_0_n_n 128 rfl rfl k
  have el : dot_S100000x128_S128x128_S100000x128_1_1_0_0_n_n.lhsIdx (ix2 n o) ((contrEquiv1 dot_S100000x128_S128x128_S100000x128_1_1_0_0_n_n 128 rfl rfl).symm k) = ix2 n k := funext fun a => Fin.ext (by
    match a with
    | ⟨0, _⟩ => exact Read.lhs_main_v21_0 _ _
    | ⟨1, _⟩ => exact (Read.lhs_main_v21_1 _ _).trans hk)
  have er : dot_S100000x128_S128x128_S100000x128_1_1_0_0_n_n.rhsIdx (ix2 n o) ((contrEquiv1 dot_S100000x128_S128x128_S100000x128_1_1_0_0_n_n 128 rfl rfl).symm k) = ix2 o k := funext fun a => Fin.ext (by
    match a with
    | ⟨0, _⟩ => exact Read.rhs_main_v21_0 _ _
    | ⟨1, _⟩ => exact (Read.rhs_main_v21_1 _ _).trans hk)
  rw [el, er]

/-- The left half `W[:, :128]` at `(o, k)` is `W[o, k]`. -/
theorem sliceSrc_apply (W : FVec Ideal S128x256 .f32) (o k : Fin 128) :
    extractStridedSlice S128x128 ![0, 0] W slices_S128x256_S128x128_0_0 (ix2 o k) = W (ix2 o (⟨k.val, by omega⟩ : Fin 256)) := by
  have h := Read.val_main_v0_apply (F := Ideal) W (ix2 o k)
  unfold Read.val_main_v0 at h
  rw [h]
  congr 1
  funext a
  match a with
  | ⟨0, _⟩ => rfl
  | ⟨1, _⟩ => rfl

/-- The right half `W[:, 128:]` at `(o, k)` is `W[o, k + 128]`. -/
theorem sliceRel_apply (W : FVec Ideal S128x256 .f32) (o k : Fin 128) :
    extractStridedSlice S128x128 ![0, 128] W slices_S128x256_S128x128_0_128 (ix2 o k) = W (ix2 o (⟨k.val + 128, by omega⟩ : Fin 256)) := by
  have h := Read.val_main_v1_apply (F := Ideal) W (ix2 o k)
  unfold Read.val_main_v1 at h
  rw [h]
  congr 1
  funext a
  match a with
  | ⟨0, _⟩ => rfl
  | ⟨1, _⟩ => exact Fin.ext (Nat.add_comm 128 k.val)

/-- The bias, made a row and repeated along the edges, at `(e, o)` is `b[o]`. -/
theorem biasE_apply (b : FVec Ideal S128 .f32) (e : Fin 1600000) (o : Fin 128) :
    broadcastInDim S1600000x128 ![0, 1] bcast_S1x128_S1600000x128_0_1 (broadcastInDim S1x128 ![1] bcast_S128_S1x128_1 b) (ix2 e o)
      = b (ix1 o) := by
  refine ((Read.val_main_v4_apply (F := Ideal) b (ix2 e o)).trans (Read.val_main_v3_apply (F := Ideal) b _)).trans ?_
  congr 1
  funext a
  match a with
  | ⟨0, _⟩ => rfl

/-- The bias, made a row and repeated along the nodes, at `(n, o)` is `b[o]`. -/
theorem biasN_apply (b : FVec Ideal S128 .f32) (n : Fin 100000) (o : Fin 128) :
    broadcastInDim S100000x128 ![0, 1] bcast_S1x128_S100000x128_0_1 (broadcastInDim S1x128 ![1] bcast_S128_S1x128_1 b) (ix2 n o)
      = b (ix1 o) := by
  refine ((Read.val_main_v23_apply (F := Ideal) b (ix2 n o)).trans (Read.val_main_v22_apply (F := Ideal) b _)).trans ?_
  congr 1
  funext a
  match a with
  | ⟨0, _⟩ => rfl

/-- The confidence column repeated along the channels at `(e, o)` is `conf[e, 0]`. -/
theorem conf_apply (conf : FVec Ideal S1600000x1 .f32) (e : Fin 1600000) (o : Fin 128) :
    broadcastInDim S1600000x128 ![0, 1] bcast_S1600000x1_S1600000x128_0_1 conf (ix2 e o) = conf (ix2 e (0 : Fin 1)) := by
  have h := Read.val_main_v16_apply (F := Ideal) conf (ix2 e o)
  unfold Read.val_main_v16 at h
  rw [h]
  congr 1
  funext a
  match a with
  | ⟨0, _⟩ => rfl
  | ⟨1, _⟩ => rfl

/-! ## The two bridges -/

theorem msg_bridge (srch rel : FVec Ideal S1600000x128 .f32) (conf : FVec Ideal S1600000x1 .f32) (W : FVec Ideal S128x256 .f32)
    (b : FVec Ideal S128 .f32) (ws wr : Cert.Spec.SW.Idx → EReal) (b2 : Cert.Spec.SB.Idx → EReal)
    (hws : ∀ (k o : Fin 128), ws (ix2 k o) = W (ix2 o (⟨k.val, by omega⟩ : Fin 256)))
    (hwr : ∀ (k o : Fin 128), wr (ix2 k o) = W (ix2 o (⟨k.val + 128, by omega⟩ : Fin 256)))
    (hb : ∀ o : Fin 128, b2 (ix2 (0 : Fin 1) o) = b (ix1 o)) :
    Cert.Spec.msg srch rel conf ws wr b2 = refMsg srch rel conf W b := by
  funext j
  obtain ⟨e, o, rfl⟩ : ∃ (e : Fin 1600000) (o : Fin 128), j = ix2 e o := ⟨j 0, j 1, eq_ix2 j⟩
  rw [Cert.Spec.msg_apply]
  unfold Cert.Spec.msgAt refMsg
  rw [mulf_apply, hostTanh_apply, addf_apply, addf_apply, dotE_apply, dotE_apply, biasE_apply, conf_apply]
  simp only [sliceSrc_apply, sliceRel_apply, hws, hwr, hb]
  rw [add_assoc]

theorem upd_bridge (h agg : FVec Ideal S100000x128 .f32) (Wself : FVec Ideal S128x128 .f32) (bself : FVec Ideal S128 .f32)
    (w : Cert.Spec.SW.Idx → EReal) (b2 : Cert.Spec.SB.Idx → EReal)
    (hw : ∀ (k o : Fin 128), w (ix2 k o) = Wself (ix2 o k))
    (hb : ∀ o : Fin 128, b2 (ix2 (0 : Fin 1) o) = bself (ix1 o)) :
    Cert.Spec.upd h agg w b2 = refUpd h agg Wself bself := by
  funext j
  obtain ⟨n, o, rfl⟩ : ∃ (n : Fin 100000) (o : Fin 128), j = ix2 n o := ⟨j 0, j 1, eq_ix2 j⟩
  rw [Cert.Spec.upd_apply]
  unfold Cert.Spec.updAt refUpd
  rw [hostTanh_apply, addf_apply, addf_apply, dotN_apply, biasN_apply]
  simp only [hw, hb]

end Cert.RefBridge

end
-- ==== Proof.RoundBridge.lean ====
/-
  One round of message passing as the reference computes it, and that the idealized kernel program's round is the same
  function of the same arrays.

  The reference gathers each edge's source state (negative indices counted from the end), forms the messages
  `tanh(src · W_srcᵀ + (rel · W_relᵀ + b)) · conf`, sums them into their destination nodes and updates
  `tanh(h · W_selfᵀ + b_self + agg)`. The kernel program does the same with the weights transposed beforehand and the
  bias added after both products: equal by associativity of addition on the extended reals (`Cert.RefBridge`).
-/
import proofs.«421721_j14199161880576_1_alg».proof.Proof.KernelChain
import proofs.«421721_j14199161880576_1_alg».proof.Proof.RefBridge
import proofs.«421721_j14199161880576_1_alg».proof.Proof.Gen.ReferenceIdeal.Run

set_option maxRecDepth 16384

noncomputable section

namespace Cert.RoundBridge

open Idealize.ShloMosaic Idealize.ShloMosaic.TcCoe Idealize.SL.Sem Idealize.ShloMosaic.ValueIdx
open Cert.ReferenceIdeal Cert.ReferenceIdeal.Gen

/-- One round of the reference from node states `h`. -/
def refRound (a1 : FVec Ideal S1600000x128 .f32) (a2 : FVec Ideal S1600000x1 .f32) (a3 : FVec Ideal S128x256 .f32)
    (a4 : FVec Ideal S128 .f32) (a5 : FVec Ideal S128x128 .f32) (a6 : FVec Ideal S128 .f32) (a7 a8 : IVec S1600000 32)
    (h : FVec Ideal S100000x128 .f32) : FVec Ideal S100000x128 .f32 :=
  Cert.RefBridge.refUpd h
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 a8)
      (Cert.RefBridge.refMsg
        (Host.gather gather_S100000x128_S1600000x1_S1600000x128_1_0_n_n_0_1_1128 h
          (broadcastInDim S1600000x1 ![0] bcast_S1600000_S1600000x1_0
            (select (cmpi .slt a7 (broadcastInDim S1600000 ![] bcast_S_S1600000 (constantI S_ 32 0#32)))
              (addi a7 (broadcastInDim S1600000 ![] bcast_S_S1600000 (constantI S_ 32 100000#32))) a7)))
        a1 a2 a3 a4))
    a5 a6

/-- The reference's result is two rounds from the launch node states. -/
theorem res_eq (m : (ℓ : Loc nD τ sig) → Buf (Elt Ideal) ℓ) (c : Dev nD) :
    (Cert.ReferenceIdeal.Value.res_main_v47 m c : FVec Ideal S100000x128 .f32)
      = refRound (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg8))
          (refRound (m ((c.tc : Thread nD τ).loc main_arg1)) (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6))
            (m ((c.tc : Thread nD τ).loc main_arg7)) (m ((c.tc : Thread nD τ).loc main_arg8))
            (m ((c.tc : Thread nD τ).loc main_arg0))) := by
  unfold Cert.ReferenceIdeal.Value.res_main_v47 refRound Cert.RefBridge.refUpd Cert.RefBridge.refMsg
  rfl

/-- The kernel program's round is the reference's round of the same arrays. -/
theorem round_eq (m : (ℓ : Loc Cert.KernelIdeal.nD Cert.KernelIdeal.τ Cert.KernelIdeal.sig) → Buf (Elt Ideal) ℓ)
    (c : Dev Cert.KernelIdeal.nD) (h : FVec Ideal S100000x128 .f32) :
    Cert.KernelIdeal.Chain.round m c h
      = refRound (Cert.KernelIdeal.Chain.a1 m c) (Cert.KernelIdeal.Chain.a2 m c) (Cert.KernelIdeal.Chain.a3 m c)
          (Cert.KernelIdeal.Chain.a4 m c) (Cert.KernelIdeal.Chain.a5 m c) (Cert.KernelIdeal.Chain.a6 m c)
          (Cert.KernelIdeal.Chain.a7 m c) (Cert.KernelIdeal.Chain.a8 m c) h := by
  unfold Cert.KernelIdeal.Chain.round
  rw [Cert.RefBridge.msg_bridge _ _ _ (Cert.KernelIdeal.Chain.a3 m c) (Cert.KernelIdeal.Chain.a4 m c) _ _ _
      (Cert.KernelIdeal.Chain.wsT_apply m c) (Cert.KernelIdeal.Chain.wrT_apply m c) (Cert.KernelIdeal.Chain.bmsg_apply m c),
    Cert.RefBridge.upd_bridge _ _ (Cert.KernelIdeal.Chain.a5 m c) (Cert.KernelIdeal.Chain.a6 m c) _ _
      (Cert.KernelIdeal.Chain.wselfT_apply m c) (Cert.KernelIdeal.Chain.bself_apply m c)]
  unfold refRound Cert.KernelIdeal.Chain.aggOf Cert.KernelIdeal.Take.normIdx
  rfl

end Cert.RoundBridge

end
-- ==== Proof.lean ====
/-
  The certificate of a two-round message-passing step on a graph of 100000 nodes and 1600000 edges with 128 channels.

  Both programs compute, twice over: every edge takes its source node's state; its message is
  `tanh(src · W_srcᵀ + rel · W_relᵀ + b) · conf`; the messages are summed into their destination nodes; every node's new
  state is `tanh(h · W_selfᵀ + b_self + agg)`. The kernel program computes the messages and the node updates in kernel
  regions (200 blocks of 8000 edges; 20 blocks of 5000 nodes) over weights it transposes beforehand, gathering the source
  states by a take that replaces out-of-range rows, and the reference in plain array operations, gathering by an index
  that is clamped. With every source index in `[-100000, 100000)`, which the precondition states, no row is replaced and
  none is clamped, and the two results agree as extended reals: the per-edge and per-node formulas differ only in where
  the bias is added (associativity of addition).

  The frames are the generated ones; the kernel program's run with its result named calls the several-regions launch
  again (`Cert.KernelIdeal.Run`); the result's value is read back through the program in `Cert.KernelIdeal.Chain`; the
  reference's run is the generated one.
-/
import proofs.«421721_j14199161880576_1_alg».proof.Defs
import proofs.«421721_j14199161880576_1_alg».proof.Proof.Gen.Kernel
import proofs.«421721_j14199161880576_1_alg».proof.Proof.Gen.Kernel.Skeleton
import proofs.«421721_j14199161880576_1_alg».proof.Proof.Gen.Kernel.Launch
import proofs.«421721_j14199161880576_1_alg».proof.Proof.Gen.Kernel.Points
import proofs.«421721_j14199161880576_1_alg».proof.Proof.Gen.Kernel.Frame
import proofs.«421721_j14199161880576_1_alg».proof.Proof.Gen.KernelIdeal
import proofs.«421721_j14199161880576_1_alg».proof.Proof.Gen.KernelIdeal.Skeleton
import proofs.«421721_j14199161880576_1_alg».proof.Proof.Gen.KernelIdeal.Launch
import proofs.«421721_j14199161880576_1_alg».proof.Proof.Gen.KernelIdeal.Points
import proofs.«421721_j14199161880576_1_alg».proof.Proof.Gen.KernelIdeal.Frame
import proofs.«421721_j14199161880576_1_alg».proof.Proof.Gen.ReferenceIdeal
import proofs.«421721_j14199161880576_1_alg».proof.Proof.Gen.Pre_finite_inputs
import proofs.«421721_j14199161880576_1_alg».proof.Proof.Gen.ReferenceIdeal.Run
import proofs.«421721_j14199161880576_1_alg».proof.Proof.Gen.ReferenceIdeal.Read
import proofs.«421721_j14199161880576_1_alg».proof.Proof.KernelRun
import proofs.«421721_j14199161880576_1_alg».proof.Proof.KernelChain
import proofs.«421721_j14199161880576_1_alg».proof.Proof.RoundBridge
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.Gen.frame m ρ

/-- The idealized kernel program runs and leaves its arguments unchanged. -/
theorem frame_ki : Cert.frame_KernelIdeal := fun m ρ _ => Cert.KernelIdeal.Gen.frame m ρ

/-- The reference runs and leaves its arguments unchanged: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments, with every source index in range, both programs end with the launch node
    states taken through two rounds. -/
theorem algebraic : Cert.algebraic_KernelIdeal_ReferenceIdeal := by
  intro m ρ m' ρ' hpre hagree
  have hr : ∀ c, Cert.KernelIdeal.Take.InRange (Cert.KernelIdeal.Chain.a7 m c) :=
    fun c => Cert.KernelIdeal.Take.inRange_of_pre m hpre c
  refine ⟨fun c => Cert.KernelIdeal.Chain.round m c (Cert.KernelIdeal.Chain.round m c (Cert.KernelIdeal.Chain.a0 m c)), ?_, ?_⟩
  · exact (θ_run Cert.KernelIdeal.defs _ _).mono
      (fun r h c => ⟨(h c).1.trans (Cert.KernelIdeal.Chain.result_eq m ρ c (hr c)), (h c).2⟩)
      (Cert.KernelIdeal.Run.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.RoundBridge.res_eq, (hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2]
    exact ((Cert.RoundBridge.round_eq m c _).trans (congrArg _ (Cert.RoundBridge.round_eq m c _))).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
